-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S32 .f32) (main_arg6 : FVec F S32x3 .f32) (main_arg7 : FVec F S3 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x3 .f32 := Host.absf main_arg6
  let main_cst_8 : FVec F S_ .f32 := constant S_ .f32 0x7F800000#32
  let main_v25 : FVec F S32x3 .f32 := broadcastInDim S32x3 ![] bcast_S_S32x3 main_cst_8
  let main_v26 : IVec S32x3 1 := cmpf .olt main_v24 main_v25
  let main_c_9 : IVec S_ 1 := constantI S_ 1 1#1
  let main_v27 : IVec S_ 1 := (fun x v => Host.reduce IntOp.andi x v reducesTo_S32x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x500 .f32) (main_arg1 : IVec S2x1600000 32) (main_arg2 : FVec F S500x128 .f32) (main_arg3 : FVec F S128 .f32) (main_arg4 : FVec F S128x32 .f32) (main_arg5 : FVec F S32 .f32) (main_arg6 : FVec F S32x3 .f32) (main_arg7 : FVec F S3 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x500 : Shape := ⟨2, ![4000, 500]⟩
abbrev S4000x128 : Shape := ⟨2, ![4000, 128]⟩
abbrev S1700000x128 : Shape := ⟨2, ![1700000, 128]⟩
abbrev S1x128 : Shape := ⟨2, ![1, 128]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x32 : Shape := ⟨2, ![1, 32]⟩
abbrev S100000x3 : Shape := ⟨2, ![100000, 3]⟩
abbrev S20000x32 : Shape := ⟨2, ![20000, 32]⟩
abbrev S20000x3 : Shape := ⟨2, ![20000, 3]⟩
abbrev S1700000x3 : Shape := ⟨2, ![1700000, 3]⟩
abbrev S1x3 : Shape := ⟨2, ![1, 3]⟩
abbrev S20000 : Shape := ⟨1, ![20000]⟩
abbrev S20000x1 : Shape := ⟨2, ![20000, 1]⟩

abbrev nBuf : Space → Nat
  | .hbm => 106
  | .vmem => 30
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x3, .f32⟩
  | .hbm, ⟨7, _⟩ => ⟨S3, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x32, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x32, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x3, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x3, .f32⟩
  | .hbm, ⟨98, _⟩ => ⟨S1700000x3, .f32⟩
  | .hbm, ⟨99, _⟩ => ⟨S1700000x3, .f32⟩
  | .hbm, ⟨100, _⟩ => ⟨S_, .f32⟩
  | .hbm, ⟨101, _⟩ => ⟨S100000x3, .f32⟩
  | .hbm, ⟨102, _⟩ => ⟨S1700000x1, .i32⟩
  | .hbm, ⟨103, _⟩ => ⟨S100000x3, .f32⟩
  | .hbm, ⟨104, _⟩ => ⟨S1x3, .f32⟩
  | .hbm, ⟨105, _⟩ => ⟨S100000x3, .f32⟩
  | .local _ .vmem, ⟨0, _⟩ => ⟨S4000x500, .f32⟩
  | .local _ .vmem, ⟨1, _⟩ => ⟨S4000x500, .f32⟩
  | .local _ .vmem, ⟨2, _⟩ => ⟨S500x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S10000x128, .f32⟩
  | .local _ .vmem, ⟨11, _⟩ => ⟨S10000x128, .f32⟩
  | .local _ .vmem, ⟨12, _⟩ => ⟨S128x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S20000x32, .f32⟩
  | .local _ .vmem, ⟨21, _⟩ => ⟨S20000x32, .f32⟩
  | .local _ .vmem, ⟨22, _⟩ => ⟨S32x3, .f32⟩
  | .local _ .vmem, ⟨23, _⟩ => ⟨S20000x3, .f32⟩
  | .local _ .vmem, ⟨24, _⟩ => ⟨S20000x3, .f32⟩
  | .local _ .vmem, ⟨25, _⟩ => ⟨S20000x3, .f32⟩
  | .local _ .vmem, ⟨26, _⟩ => ⟨S20000x3, .f32⟩
  | .local _ .vmem, ⟨27, _⟩ => ⟨S1x3, .f32⟩
  | .local _ .vmem, ⟨28, _⟩ => ⟨S20000x3, .f32⟩
  | .local _ .vmem, ⟨29, _⟩ => ⟨S20000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x3 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x3 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x3 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  inb_S32x3_S32x3_0_0 : ∀ a, (![0, 0] : Fin 2 → Nat) a + S32x3.size a ≤ S32x3.size a
  h_S32x3 : 0 < S32x3.numel
  inb_S20000x3_S20000x3_0_0 : ∀ a, (![0, 0] : Fin 2 → Nat) a + S20000x3.size a ≤ S20000x3.size a
  h_S20000x3 : 0 < S20000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  shapeCasts_S3_S1x3 : S3.ShapeCasts S1x3
  shapeCasts_S20000x3_S20000x3 : S20000x3.ShapeCasts S20000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S20000x3 : S1x3.Broadcasts S20000x3
  reduces_S20000x3_S20000 : S20000x3.Reduces [1] S20000
  shapeCasts_S20000_S20000x1 : S20000.ShapeCasts S20000x1
  broadcasts_S20000x1_S20000x3 : S20000x1.Broadcasts S20000x3
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x500_S500x128_S4000x128_1_0_0_1_n_n_wf : DotDims.WF S4000x500 S500x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S20000x32_S32x3_S20000x3_1_0_0_1_n_n_wf : DotDims.WF S20000x32 S32x3 S20000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S100000x32.size a
  hwx4_0 : ∀ i : grid4.Coords, EltTy.bits .f32 = 32 ∨ (Rect.block (s := S100000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x3.size a ≤ S32x3.size a
  hwx4_1 : ∀ i : grid4.Coords, EltTy.bits .f32 = 32 ∨ (Rect.block (s := S32x3) S32x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x3.size a ≤ S100000x3.size a
  hwx4_2 : ∀ i : grid4.Coords, EltTy.bits .f32 = 32 ∨ (Rect.block (s := S100000x3) S20000x3.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x3.size a ≤ S100000x3.size a
  hwx5_0 : ∀ i : grid5.Coords, EltTy.bits .f32 = 32 ∨ (Rect.block (s := S100000x3) S20000x3.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x3.size a ≤ S1x3.size a
  hwx5_1 : ∀ i : grid5.Coords, EltTy.bits .f32 = 32 ∨ (Rect.block (s := S1x3) S1x3.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x3.size a ≤ S100000x3.size a
  hwx5_2 : ∀ i : grid5.Coords, EltTy.bits .f32 = 32 ∨ (Rect.block (s := S100000x3) S20000x3.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x500_S500x128_S4000x128_1_0_0_1_n_n : DotDims S4000x500 S500x128 S4000x128 where
  lhsContracting := [1]
  rhsContracting := [0]
  lhsNonContracting := [0]
  rhsNonContracting := [1]
  lhsBatch := []
  rhsBatch := []
  wf := dot_S4000x500_S500x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S20000x32_S32x3_S20000x3_1_0_0_1_n_n : DotDims S20000x32 S32x3 S20000x3 where
  lhsContracting := [1]
  rhsContracting := [0]
  lhsNonContracting := [0]
  rhsNonContracting := [1]
  lhsBatch := []
  rhsBatch := []
  wf := dot_S20000x32_S32x3_S20000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S20000x3.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S20000x3.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x3.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S20000x3.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩
abbrev S100000x3 : Shape := ⟨2, ![100000, 3]⟩
abbrev S1700000x3 : Shape := ⟨2, ![1700000, 3]⟩
abbrev S1x3 : Shape := ⟨2, ![1, 3]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x32, .f32⟩
  | 5 => ⟨S32, .f32⟩
  | 6 => ⟨S32x3, .f32⟩
  | 7 => ⟨S3, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x32, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x32, .f32⟩
  | 84 => ⟨S1700000x1, .f32⟩
  | 85 => ⟨S1700000x32, .f32⟩
  | 86 => ⟨S1700000x32, .f32⟩
  | 87 => ⟨S_, .f32⟩
  | 88 => ⟨S100000x32, .f32⟩
  | 89 => ⟨S1700000x1, .i32⟩
  | 90 => ⟨S100000x32, .f32⟩
  | 91 => ⟨S1x32, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x3, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x3, .f32⟩
  | 107 => ⟨S1700000x1, .f32⟩
  | 108 => ⟨S1700000x3, .f32⟩
  | 109 => ⟨S1700000x3, .f32⟩
  | 110 => ⟨S_, .f32⟩
  | 111 => ⟨S100000x3, .f32⟩
  | 112 => ⟨S1700000x1, .i32⟩
  | 113 => ⟨S100000x3, .f32⟩
  | 114 => ⟨S1x3, .f32⟩
  | 115 => ⟨S100000x3, .f32⟩
  | 116 => ⟨S100000x3, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x3, .f32⟩
  | 124 => ⟨S100000x3, .f32⟩
  | 125 => ⟨S100000x3, .f32⟩
  | 126 => ⟨S_, .f32⟩
  | 127 => ⟨S100000, .f32⟩
  | _ => ⟨S100000x500, .f32⟩

abbrev hbmTy0_1 (i : Nat) : BufTy := match i % 128 with
  | 0 => ⟨S100000x1, .f32⟩
  | 1 => ⟨S100000x1, .f32⟩
  | 2 => ⟨S100000x3, .f32⟩
  | 3 => ⟨S100000x3, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x128_S100000x128_1_0_0_1_n_n_wf : DotDims.WF S100000x500 S500x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x3_S100000x3_1_0_0_1_n_n_wf : DotDims.WF S100000x32 S32x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.Walk.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable {F : FTy → Type} [FloatOps F]
variable (m : (ℓ : Loc nD τ sig) → Buf (Elt F) ℓ) (ρ : Dev nD → PrngReg)

/-! Buffers that no host operation and no kernel region writes between two boundaries keep their contents:
    the three index/normalisation arrays computed before the first kernel, and the argument arrays. -/

/-- A host stretch leaves a buffer as it was when none of its operations has that buffer as its result:
    the stretch's operations are listed, each one's result buffer is read off, and each is a different
    buffer from the one asked about. -/
local macro "host_keeps" ops:ident r:ident : term =>
  `(StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes,
        StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-! ## The arguments up to the first kernel: three host stretches, none of which writes an argument -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := host_keeps hostOps0_2 main_arg0
    _ = W1 m ρ c (Proc.devRef .tc main_arg0) := host_keeps hostOps0_1 main_arg0
    _ = W0 m ρ c (Proc.devRef .tc main_arg0) := host_keeps hostOps0 main_arg0
    _ = m ((c : Thread nD τ).loc main_arg0) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := host_keeps hostOps0_2 main_arg1
    _ = W1 m ρ c (Proc.devRef .tc main_arg1) := host_keeps hostOps0_1 main_arg1
    _ = W0 m ρ c (Proc.devRef .tc main_arg1) := host_keeps hostOps0 main_arg1
    _ = m ((c : Thread nD τ).loc main_arg1) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := host_keeps hostOps0_2 main_arg2
    _ = W1 m ρ c (Proc.devRef .tc main_arg2) := host_keeps hostOps0_1 main_arg2
    _ = W0 m ρ c (Proc.devRef .tc main_arg2) := host_keeps hostOps0 main_arg2
    _ = m ((c : Thread nD τ).loc main_arg2) := rfl
private theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := host_keeps hostOps0_2 main_arg3
    _ = W1 m ρ c (Proc.devRef .tc main_arg3) := host_keeps hostOps0_1 main_arg3
    _ = W0 m ρ c (Proc.devRef .tc main_arg3) := host_keeps hostOps0 main_arg3
    _ = m ((c : Thread nD τ).loc main_arg3) := rfl
private theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := host_keeps hostOps0_2 main_arg4
    _ = W1 m ρ c (Proc.devRef .tc main_arg4) := host_keeps hostOps0_1 main_arg4
    _ = W0 m ρ c (Proc.devRef .tc main_arg4) := host_keeps hostOps0 main_arg4
    _ = m ((c : Thread nD τ).loc main_arg4) := rfl
private theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := host_keeps hostOps0_2 main_arg5
    _ = W1 m ρ c (Proc.devRef .tc main_arg5) := host_keeps hostOps0_1 main_arg5
    _ = W0 m ρ c (Proc.devRef .tc main_arg5) := host_keeps hostOps0 main_arg5
    _ = m ((c : Thread nD τ).loc main_arg5) := rfl
private theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := host_keeps hostOps0_2 main_arg6
    _ = W1 m ρ c (Proc.devRef .tc main_arg6) := host_keeps hostOps0_1 main_arg6
    _ = W0 m ρ c (Proc.devRef .tc main_arg6) := host_keeps hostOps0 main_arg6
    _ = m ((c : Thread nD τ).loc main_arg6) := rfl
private theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := host_keeps hostOps0_2 main_arg7
    _ = W1 m ρ c (Proc.devRef .tc main_arg7) := host_keeps hostOps0_1 main_arg7
    _ = W0 m ρ c (Proc.devRef .tc main_arg7) := host_keeps hostOps0 main_arg7
    _ = m ((c : Thread nD τ).loc main_arg7) := rfl

/-! ## The later arguments through the kernels and host stretches that precede their first use:
    a kernel region changes only its own arrays, a host stretch only its operations' results -/

theorem W4_arg3 (c : Dev nD) : W4 m ρ c (Proc.devRef .tc main_arg3) = m ((c : Thread nD τ).loc main_arg3) :=
  (W4_of_ne m ρ c main_arg3 (by decide)).trans (W3_arg3 m ρ c)
private theorem W4_arg4 (c : Dev nD) : W4 m ρ c (Proc.devRef .tc main_arg4) = m ((c : Thread nD τ).loc main_arg4) :=
  (W4_of_ne m ρ c main_arg4 (by decide)).trans (W3_arg4 m ρ c)
private theorem W4_arg5 (c : Dev nD) : W4 m ρ c (Proc.devRef .tc main_arg5) = m ((c : Thread nD τ).loc main_arg5) :=
  (W4_of_ne m ρ c main_arg5 (by decide)).trans (W3_arg5 m ρ c)
private theorem W4_arg6 (c : Dev nD) : W4 m ρ c (Proc.devRef .tc main_arg6) = m ((c : Thread nD τ).loc main_arg6) :=
  (W4_of_ne m ρ c main_arg6 (by decide)).trans (W3_arg6 m ρ c)
private theorem W4_arg7 (c : Dev nD) : W4 m ρ c (Proc.devRef .tc main_arg7) = m ((c : Thread nD τ).loc main_arg7) :=
  (W4_of_ne m ρ c main_arg7 (by decide)).trans (W3_arg7 m ρ c)
private theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := host_keeps hostOps1 main_arg4
    _ = m ((c : Thread nD τ).loc main_arg4) := W4_arg4 m ρ c
private theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := host_keeps hostOps1 main_arg5
    _ = m ((c : Thread nD τ).loc main_arg5) := W4_arg5 m ρ c
private theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := host_keeps hostOps1 main_arg6
    _ = m ((c : Thread nD τ).loc main_arg6) := W4_arg6 m ρ c
private theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := host_keeps hostOps1 main_arg7
    _ = m ((c : Thread nD τ).loc main_arg7) := W4_arg7 m ρ c
theorem W6_arg4 (c : Dev nD) : W6 m ρ c (Proc.devRef .tc main_arg4) = m ((c : Thread nD τ).loc main_arg4) :=
  (W6_of_ne m ρ c main_arg4 (by decide)).trans (W5_arg4 m ρ c)
private theorem W6_arg5 (c : Dev nD) : W6 m ρ c (Proc.devRef .tc main_arg5) = m ((c : Thread nD τ).loc main_arg5) :=
  (W6_of_ne m ρ c main_arg5 (by decide)).trans (W5_arg5 m ρ c)
private theorem W6_arg6 (c : Dev nD) : W6 m ρ c (Proc.devRef .tc main_arg6) = m ((c : Thread nD τ).loc main_arg6) :=
  (W6_of_ne m ρ c main_arg6 (by decide)).trans (W5_arg6 m ρ c)
private theorem W6_arg7 (c : Dev nD) : W6 m ρ c (Proc.devRef .tc main_arg7) = m ((c : Thread nD τ).loc main_arg7) :=
  (W6_of_ne m ρ c main_arg7 (by decide)).trans (W5_arg7 m ρ c)
theorem W7_arg5 (c : Dev nD) : W7 m ρ c (Proc.devRef .tc main_arg5) = m ((c : Thread nD τ).loc main_arg5) :=
  (W7_of_ne m ρ c main_arg5 (by decide)).trans (W6_arg5 m ρ c)
private theorem W7_arg6 (c : Dev nD) : W7 m ρ c (Proc.devRef .tc main_arg6) = m ((c : Thread nD τ).loc main_arg6) :=
  (W7_of_ne m ρ c main_arg6 (by decide)).trans (W6_arg6 m ρ c)
private theorem W7_arg7 (c : Dev nD) : W7 m ρ c (Proc.devRef .tc main_arg7) = m ((c : Thread nD τ).loc main_arg7) :=
  (W7_of_ne m ρ c main_arg7 (by decide)).trans (W6_arg7 m ρ c)
private theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := host_keeps hostOps3 main_arg6
    _ = m ((c : Thread nD τ).loc main_arg6) := W7_arg6 m ρ c
private theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := host_keeps hostOps3 main_arg7
    _ = m ((c : Thread nD τ).loc main_arg7) := W7_arg7 m ρ c
theorem W9_arg6 (c : Dev nD) : W9 m ρ c (Proc.devRef .tc main_arg6) = m ((c : Thread nD τ).loc main_arg6) :=
  (W9_of_ne m ρ c main_arg6 (by decide)).trans (W8_arg6 m ρ c)
private theorem W9_arg7 (c : Dev nD) : W9 m ρ c (Proc.devRef .tc main_arg7) = m ((c : Thread nD τ).loc main_arg7) :=
  (W9_of_ne m ρ c main_arg7 (by decide)).trans (W8_arg7 m ρ c)
theorem W10_arg7 (c : Dev nD) : W10 m ρ c (Proc.devRef .tc main_arg7) = m ((c : Thread nD τ).loc main_arg7) :=
  (W10_of_ne m ρ c main_arg7 (by decide)).trans (W9_arg7 m ρ c)

/-! ## The three arrays computed before the first kernel (the two index arrays and the normalisation
    column): after the first kernel's entry nothing writes them again -/

theorem W4_v3 (c : Dev nD) : W4 m ρ c (Proc.devRef .tc main_v3) = W3 m ρ c (Proc.devRef .tc main_v3) :=
  W4_of_ne m ρ c main_v3 (by decide)
private theorem W5_v3 (c : Dev nD) : W5 m ρ c (Proc.devRef .tc main_v3) = W3 m ρ c (Proc.devRef .tc main_v3) :=
  calc W5 m ρ c (Proc.devRef .tc main_v3)
    _ = W4 m ρ c (Proc.devRef .tc main_v3) := host_keeps hostOps1 main_v3
    _ = W3 m ρ c (Proc.devRef .tc main_v3) := W4_v3 m ρ c
private theorem W6_v3 (c : Dev nD) : W6 m ρ c (Proc.devRef .tc main_v3) = W3 m ρ c (Proc.devRef .tc main_v3) :=
  (W6_of_ne m ρ c main_v3 (by decide)).trans (W5_v3 m ρ c)
theorem W7_v3 (c : Dev nD) : W7 m ρ c (Proc.devRef .tc main_v3) = W3 m ρ c (Proc.devRef .tc main_v3) :=
  (W7_of_ne m ρ c main_v3 (by decide)).trans (W6_v3 m ρ c)
private theorem W8_v3 (c : Dev nD) : W8 m ρ c (Proc.devRef .tc main_v3) = W3 m ρ c (Proc.devRef .tc main_v3) :=
  calc W8 m ρ c (Proc.devRef .tc main_v3)
    _ = W7 m ρ c (Proc.devRef .tc main_v3) := host_keeps hostOps3 main_v3
    _ = W3 m ρ c (Proc.devRef .tc main_v3) := W7_v3 m ρ c
private theorem W9_v3 (c : Dev nD) : W9 m ρ c (Proc.devRef .tc main_v3) = W3 m ρ c (Proc.devRef .tc main_v3) :=
  (W9_of_ne m ρ c main_v3 (by decide)).trans (W8_v3 m ρ c)
theorem W10_v3 (c : Dev nD) : W10 m ρ c (Proc.devRef .tc main_v3) = W3 m ρ c (Proc.devRef .tc main_v3) :=
  (W10_of_ne m ρ c main_v3 (by decide)).trans (W9_v3 m ρ c)
theorem W4_v6 (c : Dev nD) : W4 m ρ c (Proc.devRef .tc main_v6) = W3 m ρ c (Proc.devRef .tc main_v6) :=
  W4_of_ne m ρ c main_v6 (by decide)
private theorem W5_v6 (c : Dev nD) : W5 m ρ c (Proc.devRef .tc main_v6) = W3 m ρ c (Proc.devRef .tc main_v6) :=
  calc W5 m ρ c (Proc.devRef .tc main_v6)
    _ = W4 m ρ c (Proc.devRef .tc main_v6) := host_keeps hostOps1 main_v6
    _ = W3 m ρ c (Proc.devRef .tc main_v6) := W4_v6 m ρ c
private theorem W6_v6 (c : Dev nD) : W6 m ρ c (Proc.devRef .tc main_v6) = W3 m ρ c (Proc.devRef .tc main_v6) :=
  (W6_of_ne m ρ c main_v6 (by decide)).trans (W5_v6 m ρ c)
theorem W7_v6 (c : Dev nD) : W7 m ρ c (Proc.devRef .tc main_v6) = W3 m ρ c (Proc.devRef .tc main_v6) :=
  (W7_of_ne m ρ c main_v6 (by decide)).trans (W6_v6 m ρ c)
private theorem W8_v6 (c : Dev nD) : W8 m ρ c (Proc.devRef .tc main_v6) = W3 m ρ c (Proc.devRef .tc main_v6) :=
  calc W8 m ρ c (Proc.devRef .tc main_v6)
    _ = W7 m ρ c (Proc.devRef .tc main_v6) := host_keeps hostOps3 main_v6
    _ = W3 m ρ c (Proc.devRef .tc main_v6) := W7_v6 m ρ c
private theorem W9_v6 (c : Dev nD) : W9 m ρ c (Proc.devRef .tc main_v6) = W3 m ρ c (Proc.devRef .tc main_v6) :=
  (W9_of_ne m ρ c main_v6 (by decide)).trans (W8_v6 m ρ c)
theorem W10_v6 (c : Dev nD) : W10 m ρ c (Proc.devRef .tc main_v6) = W3 m ρ c (Proc.devRef .tc main_v6) :=
  (W10_of_ne m ρ c main_v6 (by decide)).trans (W9_v6 m ρ c)
theorem W4_v32 (c : Dev nD) : W4 m ρ c (Proc.devRef .tc main_v32) = W3 m ρ c (Proc.devRef .tc main_v32) :=
  W4_of_ne m ρ c main_v32 (by decide)
private theorem W5_v32 (c : Dev nD) : W5 m ρ c (Proc.devRef .tc main_v32) = W3 m ρ c (Proc.devRef .tc main_v32) :=
  calc W5 m ρ c (Proc.devRef .tc main_v32)
    _ = W4 m ρ c (Proc.devRef .tc main_v32) := host_keeps hostOps1 main_v32
    _ = W3 m ρ c (Proc.devRef .tc main_v32) := W4_v32 m ρ c
private theorem W6_v32 (c : Dev nD) : W6 m ρ c (Proc.devRef .tc main_v32) = W3 m ρ c (Proc.devRef .tc main_v32) :=
  (W6_of_ne m ρ c main_v32 (by decide)).trans (W5_v32 m ρ c)
theorem W7_v32 (c : Dev nD) : W7 m ρ c (Proc.devRef .tc main_v32) = W3 m ρ c (Proc.devRef .tc main_v32) :=
  (W7_of_ne m ρ c main_v32 (by decide)).trans (W6_v32 m ρ c)
private theorem W8_v32 (c : Dev nD) : W8 m ρ c (Proc.devRef .tc main_v32) = W3 m ρ c (Proc.devRef .tc main_v32) :=
  calc W8 m ρ c (Proc.devRef .tc main_v32)
    _ = W7 m ρ c (Proc.devRef .tc main_v32) := host_keeps hostOps3 main_v32
    _ = W3 m ρ c (Proc.devRef .tc main_v32) := W7_v32 m ρ c
private theorem W9_v32 (c : Dev nD) : W9 m ρ c (Proc.devRef .tc main_v32) = W3 m ρ c (Proc.devRef .tc main_v32) :=
  (W9_of_ne m ρ c main_v32 (by decide)).trans (W8_v32 m ρ c)
theorem W10_v32 (c : Dev nD) : W10 m ρ c (Proc.devRef .tc main_v32) = W3 m ρ c (Proc.devRef .tc main_v32) :=
  (W10_of_ne m ρ c main_v32 (by decide)).trans (W9_v32 m ρ c)

end Cert.KernelIdeal.KV

end
-- ==== Proof.HostPre.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable {F : FTy → Type} [FloatOps F]
variable (m : (ℓ : Loc nD τ sig) → Buf (Elt F) ℓ) (ρ : Dev nD → PrngReg)

/-! The host operations before the first kernel compute, from the edge list alone, the source and target index
    arrays (with the self-loops appended) and the symmetric normalisation as a column; the reference computes
    the same three arrays by the same operations.

    The operations come in three stretches. Each stretch is read at an arbitrary valuation `V` of the buffers on
    entry, so that what an earlier stretch computed enters the next one as a name and is never opened again. -/

section Stretches

variable (V : Valuation τ sig (Elt F))

/-! ### First stretch: both index arrays, the mask of the positive degrees, the inverse square root of the
    degrees clamped below by one, and the zero the mask's complement selects. All of them are functions of the
    edge list alone. -/

set_option maxHeartbeats 1000000 in
theorem first_v3 : StableHlo.after hostOps0 V (Proc.devRef .tc main_v3)
    = val_main_v3 (F := F) (V (Proc.devRef .tc main_arg1)) := by
  after_results
  unfold val_main_v3 val_main_v2 val_main_v1 val_main_v0
  rfl

set_option maxHeartbeats 1000000 in
theorem first_v6 : StableHlo.after hostOps0 V (Proc.devRef .tc main_v6)
    = val_main_v6 (F := F) (V (Proc.devRef .tc main_arg1)) := by
  after_results
  unfold val_main_v6 val_main_v5 val_main_v4 val_main_v0
  rfl

set_option maxHeartbeats 1000000 in
theorem first_v12 : StableHlo.after hostOps0 V (Proc.devRef .tc main_v12)
    = val_main_v12 (F := F) (V (Proc.devRef .tc main_arg1)) := by
  after_results
  unfold val_main_v12 val_main_v11 val_main_cst_1 val_main_v10 val_main_v9 val_main_v8 val_main_cst_0 val_main_v7
    val_main_cst val_main_v6 val_main_v5 val_main_v4 val_main_v0
  rfl

set_option maxHeartbeats 1000000 in
theorem first_v15 : StableHlo.after hostOps0 V (Proc.devRef .tc main_v15)
    = val_main_v15 (F := F) (V (Proc.devRef .tc main_arg1)) := by
  after_results
  unfold val_main_v15 val_main_v14 val_main_v13 val_main_cst_2 val_main_v10 val_main_v9 val_main_v8 val_main_cst_0
    val_main_v7 val_main_cst val_main_v6 val_main_v5 val_main_v4 val_main_v0
  rfl

set_option maxHeartbeats 400000 in
theorem first_cst_3 : StableHlo.after hostOps0 V (Proc.devRef .tc main_cst_3) = val_main_cst_3 (F := F) := by
  after_results
  rfl

/-! ### Second stretch: the inverse square root where the degree is positive, zero elsewhere. It writes neither
    index array. -/

set_option maxHeartbeats 400000 in
theorem second_v16 (x1 : (⟨S2x1600000, .i32⟩ : BufTy).Contents (Elt F))
    (h12 : V (Proc.devRef .tc main_v12) = val_main_v12 (F := F) x1)
    (h15 : V (Proc.devRef .tc main_v15) = val_main_v15 (F := F) x1)
    (hz : V (Proc.devRef .tc main_cst_3) = val_main_cst_3 (F := F)) :
    StableHlo.after hostOps0_1 V (Proc.devRef .tc main_v16) = val_main_v16 (F := F) x1 := by
  after_results
  simp only [StableHlo.TRef.ofBuf, StableHlo.TRef.toBuf, cast_eq]
  rw [h12, h15, hz]
  unfold val_main_v16 val_main_call0_v1 val_main_call0_v0
  rfl

set_option maxHeartbeats 400000 in
theorem second_v3 : StableHlo.after hostOps0_1 V (Proc.devRef .tc main_v3) = V (Proc.devRef .tc main_v3) := by
  after_results

set_option maxHeartbeats 400000 in
theorem second_v6 : StableHlo.after hostOps0_1 V (Proc.devRef .tc main_v6) = V (Proc.devRef .tc main_v6) := by
  after_results

/-! ### Third stretch: both index arrays brought into range, the masked inverse square root gathered at each,
    the two gathers multiplied, the product laid out as a column. It writes neither index array. -/

set_option maxHeartbeats 1000000 in
theorem third_v32 (x1 : (⟨S2x1600000, .i32⟩ : BufTy).Contents (Elt F))
    (h3 : V (Proc.devRef .tc main_v3) = val_main_v3 (F := F) x1)
    (h6 : V (Proc.devRef .tc main_v6) = val_main_v6 (F := F) x1)
    (h16 : V (Proc.devRef .tc main_v16) = val_main_v16 (F := F) x1) :
    StableHlo.after hostOps0_2 V (Proc.devRef .tc main_v32) = val_main_v40 (F := F) x1 := by
  after_results_simp
  rw [h3, h6, h16]
  unfold val_main_v40 val_main_v31 val_main_v30 val_main_v29 val_main_v28 val_main_v27 val_main_v26 val_main_c_6
    val_main_v25 val_main_v24 val_main_c_5 val_main_v23 val_main_v22 val_main_v21 val_main_v20 val_main_v19
    val_main_c_4 val_main_v18 val_main_v17 val_main_c
  generalize val_main_v3 (F := F) x1 = a3
  generalize val_main_v6 (F := F) x1 = a6
  generalize val_main_v16 (F := F) x1 = a16
  rfl

set_option maxHeartbeats 400000 in
theorem third_v3 : StableHlo.after hostOps0_2 V (Proc.devRef .tc main_v3) = V (Proc.devRef .tc main_v3) := by
  after_results

set_option maxHeartbeats 400000 in
theorem third_v6 : StableHlo.after hostOps0_2 V (Proc.devRef .tc main_v6) = V (Proc.devRef .tc main_v6) := by
  after_results

end Stretches

/-! ### The three stretches in a row, from the launch contents -/

theorem W2_v3 (c : Dev nD) : W2 m ρ c (Proc.devRef .tc main_v3) = val_main_v3 (F := F) (m ((c : Thread nD τ).loc main_arg1)) :=
  (second_v3 (W1 m ρ c)).trans (first_v3 (W0 m ρ c))

theorem W2_v6 (c : Dev nD) : W2 m ρ c (Proc.devRef .tc main_v6) = val_main_v6 (F := F) (m ((c : Thread nD τ).loc main_arg1)) :=
  (second_v6 (W1 m ρ c)).trans (first_v6 (W0 m ρ c))

theorem W2_v16 (c : Dev nD) : W2 m ρ c (Proc.devRef .tc main_v16) = val_main_v16 (F := F) (m ((c : Thread nD τ).loc main_arg1)) :=
  second_v16 (W1 m ρ c) _ (first_v12 (W0 m ρ c)) (first_v15 (W0 m ρ c)) (first_cst_3 (W0 m ρ c))

theorem W3_v3 (c : Dev nD) : W3 m ρ c (Proc.devRef .tc main_v3) = val_main_v3 (F := F) (m ((c : Thread nD τ).loc main_arg1)) := by
  exact (third_v3 (W2 m ρ c)).trans (W2_v3 m ρ c)
theorem W3_v6 (c : Dev nD) : W3 m ρ c (Proc.devRef .tc main_v6) = val_main_v6 (F := F) (m ((c : Thread nD τ).loc main_arg1)) := by
  exact (third_v6 (W2 m ρ c)).trans (W2_v6 m ρ c)
theorem W3_v32 (c : Dev nD) : W3 m ρ c (Proc.devRef .tc main_v32) = val_main_v40 (F := F) (m ((c : Thread nD τ).loc main_arg1)) := by
  exact third_v32 (W2 m ρ c) _ (W2_v3 m ρ c) (W2_v6 m ρ c) (W2_v16 m ρ c)

end Cert.KernelIdeal.KV

end
-- ==== Proof.Host1.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable {F : FTy → Type} [FloatOps F]
variable (m : (ℓ : Loc nD τ sig) → Buf (Elt F) ℓ) (ρ : Dev nD → PrngReg)

/-! Between the first product and the first bias kernel the host gathers the product's rows at the source indices, scales them by the normalisation column and sums them into the target rows; it also lays the bias vector out as one row. The reference applies the same operations to the same arrays. -/

set_option maxHeartbeats 1000000 in
theorem host1_agg (c : Dev nD) (x0 : (⟨Cert.ReferenceIdeal.S100000x500, .f32⟩ : BufTy).Contents (Elt F)) (x1 : (⟨Cert.ReferenceIdeal.S2x1600000, .i32⟩ : BufTy).Contents (Elt F)) (x2 : (⟨Cert.ReferenceIdeal.S500x128, .f32⟩ : BufTy).Contents (Elt F))
    (hin : W4 m ρ c (Proc.devRef .tc main_v33) = val_main_v32 (F := F) x0 x2)
    (h3 : W4 m ρ c (Proc.devRef .tc main_v3) = val_main_v3 (F := F) x1)
    (h6 : W4 m ρ c (Proc.devRef .tc main_v6) = val_main_v6 (F := F) x1)
    (h32 : W4 m ρ c (Proc.devRef .tc main_v32) = val_main_v40 (F := F) x1) :
    W5 m ρ c (Proc.devRef .tc main_v45) = val_main_v45 (F := F) x0 x1 x2 := by
  -- the contents after the stretch are the stretch's operations applied to the contents before it
  show StableHlo.after hostOps1 (W4 m ρ c) (Proc.devRef .tc main_v45) = _
  generalize W4 m ρ c = V at hin h3 h6 h32 ⊢
  after_results
  rw [hin, h3, h6, h32]
  -- the reference's stages, opened down to the four arrays the two sides share
  unfold val_main_v45 val_main_v43 val_main_cst_9 val_main_v44 val_main_v42 val_main_v41 val_main_v39 val_main_v38
    val_main_v37 val_main_v36 val_main_v35 val_main_c_8 val_main_v34 val_main_v33 val_main_c_7
  generalize val_main_v32 (F := F) x0 x2 = a
  generalize val_main_v3 (F := F) x1 = s
  generalize val_main_v6 (F := F) x1 = t
  generalize val_main_v40 (F := F) x1 = w
  -- both sides are now the same operations applied to a, s, t, w
  rfl

set_option maxHeartbeats 1000000 in
theorem host1_bias (c : Dev nD) (j : S1x128.Idx) :
    (W5 m ρ c (Proc.devRef .tc main_v46) : S1x128.Idx → Elt F .f32) j = (W4 m ρ c (Proc.devRef .tc main_arg3) : _ → Elt F .f32) (ValueIdx.ix1 (j 1)) := by
  show StableHlo.after hostOps1 (W4 m ρ c) (Proc.devRef .tc main_v46) j = _
  generalize W4 m ρ c = V
  after_results
  -- the reshape keeps the row-major order: the row's element at j is the vector's at j's column
  show shapeCast S1x128 (V (Proc.devRef .tc main_arg3) : S128.Idx → Elt F .f32) shapeCasts_S128_S1x128 j = _
  exact shapeCast_apply _ shapeCasts_S128_S1x128 j (ValueIdx.ix1 (j 1)) (by
    rw [Shape.rowMajor_val_two, Shape.rowMajor_val_one]
    have h0 : (j 0).val < 1 := (j 0).isLt
    show (j 1).val = (j 0).val * 128 + (j 1).val
    omega)

end Cert.KernelIdeal.KV

end
-- ==== Proof.Host3.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable {F : FTy → Type} [FloatOps F]
variable (m : (ℓ : Loc nD τ sig) → Buf (Elt F) ℓ) (ρ : Dev nD → PrngReg)

/-! Between the second product and the second bias kernel: the same gather, scaling and scatter-sum over 32 columns, and the second bias vector laid out as one row. -/

set_option maxHeartbeats 1000000 in
theorem host3_agg (c : Dev nD) (x0 : (⟨Cert.ReferenceIdeal.S100000x500, .f32⟩ : BufTy).Contents (Elt F)) (x1 : (⟨Cert.ReferenceIdeal.S2x1600000, .i32⟩ : BufTy).Contents (Elt F)) (x2 : (⟨Cert.ReferenceIdeal.S500x128, .f32⟩ : BufTy).Contents (Elt F)) (x3 : (⟨Cert.ReferenceIdeal.S128, .f32⟩ : BufTy).Contents (Elt F)) (x4 : (⟨Cert.ReferenceIdeal.S128x32, .f32⟩ : BufTy).Contents (Elt F))
    (hin : W7 m ρ c (Proc.devRef .tc main_v48) = val_main_v50 (F := F) x0 x1 x2 x3 x4)
    (h3 : W7 m ρ c (Proc.devRef .tc main_v3) = val_main_v3 (F := F) x1)
    (h6 : W7 m ρ c (Proc.devRef .tc main_v6) = val_main_v6 (F := F) x1)
    (h32 : W7 m ρ c (Proc.devRef .tc main_v32) = val_main_v40 (F := F) x1) :
    W8 m ρ c (Proc.devRef .tc main_v60) = val_main_v63 (F := F) x0 x1 x2 x3 x4 := by
  -- the contents after the stretch are the stretch's operations applied to the contents before it
  show StableHlo.after hostOps3 (W7 m ρ c) (Proc.devRef .tc main_v60) = _
  generalize W7 m ρ c = V at hin h3 h6 h32 ⊢
  after_results
  rw [hin, h3, h6, h32]
  -- the reference's stages, opened down to the four arrays the two sides share
  unfold val_main_v63 val_main_v61 val_main_cst_12 val_main_v62 val_main_v60 val_main_v59 val_main_v58 val_main_v40
    val_main_v57 val_main_v56 val_main_v55 val_main_v54 val_main_v53 val_main_c_11 val_main_v52 val_main_v51 val_main_c_10
  generalize val_main_v50 (F := F) x0 x1 x2 x3 x4 = a
  generalize val_main_v3 (F := F) x1 = s
  generalize val_main_v6 (F := F) x1 = t
  generalize val_main_v31 (F := F) x1 = w
  -- both sides are now the same operations applied to a, s, t, w
  rfl

set_option maxHeartbeats 1000000 in
theorem host3_bias (c : Dev nD) (j : S1x32.Idx) :
    (W8 m ρ c (Proc.devRef .tc main_v61) : S1x32.Idx → Elt F .f32) j = (W7 m ρ c (Proc.devRef .tc main_arg5) : _ → Elt F .f32) (ValueIdx.ix1 (j 1)) := by
  show StableHlo.after hostOps3 (W7 m ρ c) (Proc.devRef .tc main_v61) j = _
  generalize W7 m ρ c = V
  after_results
  -- the reshape keeps the row-major order: the row's element at j is the vector's at j's column
  show shapeCast S1x32 (V (Proc.devRef .tc main_arg5) : S32.Idx → Elt F .f32) shapeCasts_S32_S1x32 j = _
  exact shapeCast_apply _ shapeCasts_S32_S1x32 j (ValueIdx.ix1 (j 1)) (by
    rw [Shape.rowMajor_val_two, Shape.rowMajor_val_one]
    have h0 : (j 0).val < 1 := (j 0).isLt
    show (j 1).val = (j 0).val * 32 + (j 1).val
    omega)

end Cert.KernelIdeal.KV

end
-- ==== Proof.Host5.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable {F : FTy → Type} [FloatOps F]
variable (m : (ℓ : Loc nD τ sig) → Buf (Elt F) ℓ) (ρ : Dev nD → PrngReg)

/-! Between the third product and the last kernel: the same gather, scaling and scatter-sum over 3 columns, and the third bias vector laid out as one row. -/

set_option maxHeartbeats 1000000 in
theorem host5_agg (c : Dev nD) (x0 : (⟨Cert.ReferenceIdeal.S100000x500, .f32⟩ : BufTy).Contents (Elt F)) (x1 : (⟨Cert.ReferenceIdeal.S2x1600000, .i32⟩ : BufTy).Contents (Elt F)) (x2 : (⟨Cert.ReferenceIdeal.S500x128, .f32⟩ : BufTy).Contents (Elt F)) (x3 : (⟨Cert.ReferenceIdeal.S128, .f32⟩ : BufTy).Contents (Elt F)) (x4 : (⟨Cert.ReferenceIdeal.S128x32, .f32⟩ : BufTy).Contents (Elt F)) (x5 : (⟨Cert.ReferenceIdeal.S32, .f32⟩ : BufTy).Contents (Elt F)) (x6 : (⟨Cert.ReferenceIdeal.S32x3, .f32⟩ : BufTy).Contents (Elt F))
    (hin : W10 m ρ c (Proc.devRef .tc main_v63) = val_main_v68 (F := F) x0 x1 x2 x3 x4 x5 x6)
    (h3 : W10 m ρ c (Proc.devRef .tc main_v3) = val_main_v3 (F := F) x1)
    (h6 : W10 m ρ c (Proc.devRef .tc main_v6) = val_main_v6 (F := F) x1)
    (h32 : W10 m ρ c (Proc.devRef .tc main_v32) = val_main_v40 (F := F) x1) :
    W11 m ρ c (Proc.devRef .tc main_v75) = val_main_v81 (F := F) x0 x1 x2 x3 x4 x5 x6 := by
  -- the contents after the stretch are the stretch's operations applied to the contents before it
  show StableHlo.after hostOps5 (W10 m ρ c) (Proc.devRef .tc main_v75) = _
  generalize W10 m ρ c = V at hin h3 h6 h32 ⊢
  after_results
  rw [hin, h3, h6, h32]
  -- the reference's stages, opened down to the four arrays the two sides share
  unfold val_main_v81 val_main_v79 val_main_cst_15 val_main_v80 val_main_v78 val_main_v77 val_main_v76 val_main_v40
    val_main_v75 val_main_v74 val_main_v73 val_main_v72 val_main_v71 val_main_c_14 val_main_v70 val_main_v69 val_main_c_13
  generalize val_main_v68 (F := F) x0 x1 x2 x3 x4 x5 x6 = a
  generalize val_main_v3 (F := F) x1 = s
  generalize val_main_v6 (F := F) x1 = t
  generalize val_main_v31 (F := F) x1 = w
  -- both sides are now the same operations applied to a, s, t, w
  rfl

set_option maxHeartbeats 1000000 in
theorem host5_bias (c : Dev nD) (j : S1x3.Idx) :
    (W11 m ρ c (Proc.devRef .tc main_v76) : S1x3.Idx → Elt F .f32) j = (W10 m ρ c (Proc.devRef .tc main_arg7) : _ → Elt F .f32) (ValueIdx.ix1 (j 1)) := by
  show StableHlo.after hostOps5 (W10 m ρ c) (Proc.devRef .tc main_v76) j = _
  generalize W10 m ρ c = V
  after_results
  -- the reshape keeps the row-major order: the row's element at j is the vector's at j's column
  show shapeCast S1x3 (V (Proc.devRef .tc main_arg7) : S3.Idx → Elt F .f32) shapeCasts_S3_S1x3 j = _
  exact shapeCast_apply _ shapeCasts_S3_S1x3 j (ValueIdx.ix1 (j 1)) (by
    rw [Shape.rowMajor_val_two, Shape.rowMajor_val_one]
    have h0 : (j 0).val < 1 := (j 0).isLt
    show (j 1).val = (j 0).val * 3 + (j 1).val
    omega)

end Cert.KernelIdeal.KV

end
-- ==== Proof.Reg0.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

/-! ## The tile product at an index -/

/-- On the tile product's left operand, the row axis is the output's row. -/
theorem lhs_tile0_0 (i : S4000x128.Idx) (q : dot_S4000x500_S500x128_S4000x128_1_0_0_1_n_n.contr.Idx) :
    (dot_S4000x500_S500x128_S4000x128_1_0_0_1_n_n.lhsIdx i q 0).val = (i 0).val := by
  unfold DotDims.lhsIdx
  rw [dif_neg (show ¬(0 : Fin S4000x500.rank) ∈ dot_S4000x500_S500x128_S4000x128_1_0_0_1_n_n.lhsBatch by decide), dif_pos (show (0 : Fin S4000x500.rank) ∈ dot_S4000x500_S500x128_S4000x128_1_0_0_1_n_n.lhsNonContracting by decide)]
  rfl
/-- On the left operand, the column axis is the contracted index. -/
theorem lhs_tile0_1 (i : S4000x128.Idx) (q : dot_S4000x500_S500x128_S4000x128_1_0_0_1_n_n.contr.Idx) :
    (dot_S4000x500_S500x128_S4000x128_1_0_0_1_n_n.lhsIdx i q 1).val = (q ⟨0, by decide⟩).val :=
  dot_S4000x500_S500x128_S4000x128_1_0_0_1_n_n.lhsIdx_val_of_single rfl i q
/-- On the right operand, the row axis is the contracted index. -/
theorem rhs_tile0_0 (i : S4000x128.Idx) (q : dot_S4000x500_S500x128_S4000x128_1_0_0_1_n_n.contr.Idx) :
    (dot_S4000x500_S500x128_S4000x128_1_0_0_1_n_n.rhsIdx i q 0).val = (q ⟨0, by decide⟩).val :=
  dot_S4000x500_S500x128_S4000x128_1_0_0_1_n_n.rhsIdx_val_of_single rfl i q
/-- On the right operand, the column axis is the output's column. -/
theorem rhs_tile0_1 (i : S4000x128.Idx) (q : dot_S4000x500_S500x128_S4000x128_1_0_0_1_n_n.contr.Idx) :
    (dot_S4000x500_S500x128_S4000x128_1_0_0_1_n_n.rhsIdx i q 1).val = (i 1).val := by
  unfold DotDims.rhsIdx
  rw [dif_neg (show ¬(1 : Fin S500x128.rank) ∈ dot_S4000x500_S500x128_S4000x128_1_0_0_1_n_n.rhsBatch by decide), dif_pos (show (1 : Fin S500x128.rank) ∈ dot_S4000x500_S500x128_S4000x128_1_0_0_1_n_n.rhsNonContracting by decide)]
  rfl

/-- The body's payload at row `p`, column `q` of the tile: the rounding of the operands being the identity on
    the extended reals and the accumulator zero, it is the sum over the 500 contracted positions of the products. -/
theorem tile0_apply (x0 : Vec Ideal S4000x500 .f32) (x1 : Vec Ideal S500x128 .f32) (p : Fin 4000) (q : Fin 128) :
    k0_pay1 (F := Ideal) x0 x1 (ValueIdx.ix2 p q) = ∑ k : Fin 500, x0 (ValueIdx.ix2 p k) * x1 (ValueIdx.ix2 k q) := by
  unfold k0_pay1
  refine (Ideal.matmul_constant_zero_apply dot_S4000x500_S500x128_S4000x128_1_0_0_1_n_n none _ _ (ValueIdx.ix2 p q)).trans ?_
  rw [← Equiv.sum_comp (ValueIdx.contrEquiv1 dot_S4000x500_S500x128_S4000x128_1_0_0_1_n_n 500 rfl rfl).symm]
  refine Finset.sum_congr rfl fun k _ => ?_
  have hk := ValueIdx.contrEquiv1_symm_val dot_S4000x500_S500x128_S4000x128_1_0_0_1_n_n 500 rfl rfl k
  have el : dot_S4000x500_S500x128_S4000x128_1_0_0_1_n_n.lhsIdx (ValueIdx.ix2 p q) ((ValueIdx.contrEquiv1 dot_S4000x500_S500x128_S4000x128_1_0_0_1_n_n 500 rfl rfl).symm k) = ValueIdx.ix2 p k := funext fun a => Fin.ext (by
    match a with
    | ⟨0, _⟩ => exact lhs_tile0_0 _ _
    | ⟨1, _⟩ => exact (lhs_tile0_1 _ _).trans hk)
  have er : dot_S4000x500_S500x128_S4000x128_1_0_0_1_n_n.rhsIdx (ValueIdx.ix2 p q) ((ValueIdx.contrEquiv1 dot_S4000x500_S500x128_S4000x128_1_0_0_1_n_n 500 rfl rfl).symm k) = ValueIdx.ix2 k q := funext fun a => Fin.ext (by
    match a with
    | ⟨0, _⟩ => exact (rhs_tile0_0 _ _).trans hk
    | ⟨1, _⟩ => exact rhs_tile0_1 _ _)
  rw [ValueIdx.truncf_apply, ValueIdx.truncf_apply, el, er]

variable (V : (c : Dev nD) → (b : Ref sig .tc) → Buf (Elt Ideal) ((c : Thread nD τ).loc b))

/-! ## From the row blocks to the array -/

theorem off_zero0 : (![0, 0] : Fin 2 → Nat) = fun _ => 0 := funext fun a => by fin_cases a <;> rfl

/-- The block index maps over the 25 points: the left operand's row block is the output's, every other block index is
    zero, and the output's row block stays below 25. -/
theorem idx_rows0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block is some point's. -/
theorem idx_onto0 : ∀ (b : Fin 25), ∃ t : Fin cfg0.N, win0_2.index t = ![b.val, 0] :=
  (by decide +kernel : ∀ (b : Fin 25), ∃ t : Fin grid0.N, win0_2.index t = ![b.val, 0])

set_option maxHeartbeats 400000 in
/-- What point `t` writes back is its row block of the whole product. -/
theorem flushed0_eq (c : Dev nD) (t : Fin cfg0.N) :
    (dat0 V c).flushed 2 t = ((cfg0.win 2).blk t).view.read (Elt Ideal) (val_main_v32 (F := Ideal) (V c main_arg0) (V c main_arg2)) := by
  show (cfg0.win 2).cut (grid0.coords t) ((dat0 V c).after 2 t) = _
  rw [after0_2]
  unfold out0_2
  rw [View.canon_unit_zero off_zero0]
  simp only [View.ld_unit_zero (S := S4000x500) off_zero0, View.ld_unit_zero (S := S500x128) off_zero0]
  obtain ⟨e0, e1, e2, e3, e4, e5⟩ := idx_rows0 t
  funext j
  obtain ⟨p, q, rfl⟩ : ∃ (p : Fin 4000) (q : Fin 128), j = ValueIdx.ix2 p q := ⟨j 0, j 1, ValueIdx.eq_ix2 j⟩
  show k0_pay1 (F := Ideal) (iblk0 V c 0 t) (iblk0 V c 1 t) (ValueIdx.ix2 p q) = val_main_v32 (F := Ideal) (V c main_arg0) (V c main_arg2) (((cfg0.win 2).blk t).view.emb (ValueIdx.ix2 p q))
  refine (tile0_apply _ _ p q).trans ?_
  rw [val_main_v32_apply]
  refine Finset.sum_congr rfl fun k _ => ?_
  have hl : iblk0 V c 0 t (ValueIdx.ix2 p k) = V c main_arg0 (lidx_main_v32 (((cfg0.win 2).blk t).view.emb (ValueIdx.ix2 p q)) k) := by
    show V c main_arg0 (((cfg0.win 0).blk t).view.emb (ValueIdx.ix2 p k)) = V c main_arg0 (lidx_main_v32 (((cfg0.win 2).blk t).view.emb (ValueIdx.ix2 p q)) k)
    refine congrArg _ (funext fun a => Fin.ext ?_)
    match a with
    | ⟨0, _⟩ =>
      show win0_0.index t (0 : Fin 2) * 4000 + 1 * p.val = win0_2.index t (0 : Fin 2) * 4000 + 1 * p.val
      omega
    | ⟨1, _⟩ =>
      show win0_0.index t (1 : Fin 2) * 500 + 1 * k.val = k.val
      omega
  have hr : iblk0 V c 1 t (ValueIdx.ix2 k q) = V c main_arg2 (ridx_main_v32 (((cfg0.win 2).blk t).view.emb (ValueIdx.ix2 p q)) k) := by
    show V c main_arg2 (((cfg0.win 1).blk t).view.emb (ValueIdx.ix2 k q)) = V c main_arg2 (ridx_main_v32 (((cfg0.win 2).blk t).view.emb (ValueIdx.ix2 p q)) k)
    refine congrArg _ (funext fun a => Fin.ext ?_)
    match a with
    | ⟨0, _⟩ =>
      show win0_1.index t (0 : Fin 2) * 500 + 1 * k.val = k.val
      omega
    | ⟨1, _⟩ =>
      show win0_1.index t (1 : Fin 2) * 128 + 1 * q.val = win0_2.index t (1 : Fin 2) * 128 + 1 * q.val
      omega
  rw [hl, hr]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v33).slice (win0_2.rect t)).set ↔ _
  rw [View.set_slice_whole, Rect.mem_set_unit]
  exact Iff.rfl

/-- The 25 row blocks fill the array: row `r` lies in the block of index `r / 4000`, and every column in the one
    column block. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- The first dense layer's product: after the 25 row blocks have been written back, the output array of
    the first kernel is the whole product of the two operand arrays it found on entry. -/
theorem final0 (c : Dev nD) :
    (dat0 (F := Ideal) V c).arrAt 2 cfg0.N = val_main_v32 (F := Ideal) (V c main_arg0) (V c main_arg2) :=
  (dat0 V c).arrAt_eq_of_cover 2 _ (fun t _ => flushed0_eq V c t) cover0

end Cert.KernelIdeal.KV

end
-- ==== Proof.Reg1.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

/-- The zero offset of a whole-buffer access. -/
theorem reg1_zero_off : (![0, 0] : Fin 2 → Nat) = fun _ => 0 := funext fun a => by fin_cases a <;> rfl

/-- The body's stored value at an index: the block element plus the bias row's element of that column, rectified. -/
theorem reg1_pay_apply (x0 : Vec Ideal S4000x128 .f32) (x1 : Vec Ideal S1x128 .f32) (p : Fin 4000) (q : Fin 128) :
    k1_pay1 (F := Ideal) x0 x1 (ValueIdx.ix2 p q)
      = max (x0 (ValueIdx.ix2 p q) + x1 (ValueIdx.ix2 0 q)) (Ideal.ofBits .f32 0x00000000#32) := by
  unfold k1_pay1
  rw [shapeCast_self, shapeCast_self]
  refine (ValueIdx.maximumf_apply _ _ _).trans ?_
  rw [ValueIdx.addf_apply, ValueIdx.broadcast_apply,
    broadcastTo_apply x1 broadcasts_S1x128_S4000x128 (ValueIdx.ix2 p q) (ValueIdx.ix2 0 q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])]
  rfl

/-- The reference's rectified layer at an index: the aggregated element plus the bias of that column, rectified. -/
theorem reg1_ref_apply (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal))
    (p : Fin 100000) (q : Fin 128) :
    val_main_v49 (F := Ideal) x0 x1 x2 x3 (ValueIdx.ix2 p q)
      = max (val_main_v45 (F := Ideal) x0 x1 x2 (ValueIdx.ix2 p q) + x3 (ValueIdx.ix1 q)) (Ideal.ofBits .f32 0x00000000#32) := by
  rw [val_main_v49_apply, val_main_v48_apply, val_main_v47_apply, val_main_v46_apply, val_main_call1_v0_apply,
    val_main_call1_cst_apply]
  have hi : idx_main_v46 (idx_main_v47 (ValueIdx.ix2 p q)) = ValueIdx.ix1 q :=
    funext fun a => match a with | ⟨0, _⟩ => rfl
  rw [hi]
  rfl

variable (V : (c : Dev nD) → (b : Ref sig .tc) → Buf (Elt Ideal) ((c : Thread nD τ).loc b))

/-- The printed block-index maps over the grid: the aggregated array's and the output's blocks move down the rows
    with the point, the bias row's block stays at the origin. -/
theorem reg1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 400000 in
/-- What point `t` writes back is block `t` of any array `R` that is, index by index, the entry array's element plus
    the bias row's element of that column, rectified. -/
theorem reg1_flushed_eq (c : Dev nD) (a0 : Vec Ideal S100000x128 .f32) (a1 : Vec Ideal S1x128 .f32)
    (h0 : V c main_v45 = a0) (h1 : V c main_v46 = a1) (R : Vec Ideal S100000x128 .f32)
    (hR : ∀ (p : Fin 100000) (q : Fin 128), R (ValueIdx.ix2 p q)
      = max (a0 (ValueIdx.ix2 p q) + a1 (ValueIdx.ix2 0 q)) (Ideal.ofBits .f32 0x00000000#32))
    (t : Fin cfg1.N) :
    (dat1 (F := Ideal) V c).flushed 2 t = ((cfg1.win 2).blk t).view.read (Elt Ideal) R := by
  show (cfg1.win 2).cut (grid1.coords t) ((dat1 (F := Ideal) V c).after 2 t) = _
  rw [after1_2]
  unfold out1_2
  rw [View.canon_unit_zero reg1_zero_off]
  simp only [View.ld_unit_zero (S := S4000x128) reg1_zero_off, View.ld_unit_zero (S := S1x128) reg1_zero_off]
  funext j
  obtain ⟨p, q, rfl⟩ : ∃ (p : Fin 4000) (q : Fin 128), j = ValueIdx.ix2 p q := ⟨j 0, j 1, ValueIdx.eq_ix2 j⟩
  show k1_pay1 (F := Ideal) (iblk1 V c 0 t) (iblk1 V c 1 t) (ValueIdx.ix2 p q)
    = R (((cfg1.win 2).blk t).view.emb (ValueIdx.ix2 p q))
  refine (reg1_pay_apply _ _ p q).trans ?_
  obtain ⟨e00, e01, e10, e11, e20, e21⟩ := reg1_idx_facts t
  have ht : t.val < 25 := t.isLt
  have hp : p.val < 4000 := p.isLt
  have hq : q.val < 128 := q.isLt
  have hrow : t.val * 4000 + p.val < 100000 := by omega
  have E2 : ((cfg1.win 2).blk t).view.emb (ValueIdx.ix2 p q)
      = ValueIdx.ix2 (⟨t.val * 4000 + p.val, hrow⟩ : Fin 100000) q := by
    funext a; apply Fin.ext
    match a with
    | ⟨0, _⟩ => show win1_2.index t (0 : Fin 2) * 4000 + 1 * p.val = t.val * 4000 + p.val; omega
    | ⟨1, _⟩ => show win1_2.index t (1 : Fin 2) * 128 + 1 * q.val = q.val; omega
  have E0 : iblk1 V c 0 t (ValueIdx.ix2 p q)
      = a0 (ValueIdx.ix2 (⟨t.val * 4000 + p.val, hrow⟩ : Fin 100000) q) := by
    show V c main_v45 (((cfg1.win 0).blk t).view.emb (ValueIdx.ix2 p q)) = _
    refine (congrFun h0 _).trans (congrArg a0 ?_)
    funext a; apply Fin.ext
    match a with
    | ⟨0, _⟩ => show win1_0.index t (0 : Fin 2) * 4000 + 1 * p.val = t.val * 4000 + p.val; omega
    | ⟨1, _⟩ => show win1_0.index t (1 : Fin 2) * 128 + 1 * q.val = q.val; omega
  have E1 : iblk1 V c 1 t (ValueIdx.ix2 0 q) = a1 (ValueIdx.ix2 0 q) := by
    show V c main_v46 (((cfg1.win 1).blk t).view.emb (ValueIdx.ix2 (0 : Fin 1) q)) = _
    refine (congrFun h1 _).trans (congrArg a1 ?_)
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [E2, hR, E0, E1]

/-- An index of the output array is in point `t`'s block iff each coordinate is in the block's range on its axis. -/
theorem reg1_mem_blk (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v47).slice (win1_2.rect t)).set ↔ _
  rw [View.set_slice_whole, Rect.mem_set_unit]
  exact Iff.rfl

/-- Every index of the output array lies in the block of the point its row falls in: row `r` in point `r / 4000`'s. -/
theorem reg1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 25 := N_1
  obtain ⟨t, htv⟩ : ∃ t : Fin cfg1.N, t.val = (i 0).val / 4000 :=
    ⟨⟨(i 0).val / 4000, by show (i 0).val / 4000 < grid1.N; omega⟩, rfl⟩
  obtain ⟨-, -, -, -, e20, e21⟩ := reg1_idx_facts t
  refine ⟨t, flush1_2 t, ?_⟩
  rw [reg1_mem_blk]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 128 ≤ (i 1).val ∧ (i 1).val < win1_2.index t (1 : Fin 2) * 128 + 128
    omega

/-- Bias and rectifier of the first layer: if on entry the aggregated array is the reference's and the bias row
    is the bias vector laid out as one row, the output array after the run is the reference's rectified layer. -/
theorem final1 (c : Dev nD) (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal))
    (h45 : V c main_v45 = val_main_v45 (F := Ideal) x0 x1 x2)
    (h46 : ∀ j : S1x128.Idx, V c main_v46 j = x3 (ValueIdx.ix1 (j 1))) :
    (dat1 (F := Ideal) V c).arrAt 2 cfg1.N = val_main_v49 (F := Ideal) x0 x1 x2 x3 := by
  refine (dat1 (F := Ideal) V c).arrAt_eq_of_cover 2 _
    (fun t _ => reg1_flushed_eq V c _ _ h45 rfl _ ?_ t) reg1_cover
  intro p q
  rw [reg1_ref_apply, h46 (ValueIdx.ix2 0 q)]

end Cert.KernelIdeal.KV

end
-- ==== Proof.Reg2.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

/-! ## The block product at an index -/

/-- The product's left operand is read at the output's row … -/
theorem prodL2_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- … and the summed column, -/
theorem prodL2_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- the right operand at the summed row … -/
theorem prodR2_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- … and the output's column. -/
theorem prodR2_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- One element of a block's product: row `p` of the left block against column `q` of the weights, the rounding of
    the operands being the identity on extended reals and the accumulator starting at zero. -/
theorem blockProd_apply (x0 : Vec Ideal S10000x128 .f32) (x1 : Vec Ideal S128x32 .f32) (p : Fin 10000) (q : Fin 32) :
    k2_pay1 (F := Ideal) x0 x1 (ValueIdx.ix2 p q) = ∑ k : Fin 128, x0 (ValueIdx.ix2 p k) * x1 (ValueIdx.ix2 k q) := by
  unfold k2_pay1
  rw [shapeCast_self]
  refine (Ideal.matmul_constant_zero_apply dot_S10000x128_S128x32_S10000x32_1_0_0_1_n_n none _ _ _).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ValueIdx.ix2 p q) ((ValueIdx.contrEquiv1 dot_S10000x128_S128x32_S10000x32_1_0_0_1_n_n 128 rfl rfl).symm k) = ValueIdx.ix2 p k := funext fun a => Fin.ext (by
    match a with
    | ⟨0, _⟩ => exact prodL2_0 _ _
    | ⟨1, _⟩ => exact (prodL2_1 _ _).trans hk)
  have er : dot_S10000x128_S128x32_S10000x32_1_0_0_1_n_n.rhsIdx (ValueIdx.ix2 p q) ((ValueIdx.contrEquiv1 dot_S10000x128_S128x32_S10000x32_1_0_0_1_n_n 128 rfl rfl).symm k) = ValueIdx.ix2 k q := funext fun a => Fin.ext (by
    match a with
    | ⟨0, _⟩ => exact (prodR2_0 _ _).trans hk
    | ⟨1, _⟩ => exact prodR2_1 _ _)
  rw [ValueIdx.truncf_apply, ValueIdx.truncf_apply, el, er]

/-! ## From the blocks to the array -/

/-- The dense product of a 100000×128 array by the 128×32 weights, element by element. -/
def rowsTimes (a : S100000x128.Idx → Elt Ideal .f32) (b : S128x32.Idx → Elt Ideal .f32) : S100000x32.Idx → Elt Ideal .f32 :=
  fun i => ∑ k : Fin 128, a (ValueIdx.ix2 ⟨(i 0).val, (i 0).isLt⟩ k) * b (ValueIdx.ix2 k ⟨(i 1).val, (i 1).isLt⟩)

theorem zeroOff2 : (![0, 0] : Fin 2 → Nat) = fun _ => 0 := funext fun a => by fin_cases a <;> rfl

/-- The printed index maps over the ten points: the left operand's and the output's row blocks are the point's
    own, every other block index is zero. -/
theorem blockIdx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The reference's product stage is the same element-by-element product of its operands. -/
theorem refProd2 (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal)) :
    val_main_v50 (F := Ideal) x0 x1 x2 x3 x4 = rowsTimes (val_main_v49 (F := Ideal) x0 x1 x2 x3) x4 := by
  funext i
  rw [val_main_v50_apply]
  generalize val_main_v49 (F := Ideal) x0 x1 x2 x3 = y
  unfold rowsTimes
  refine Finset.sum_congr rfl fun k _ => ?_
  have el : lidx_main_v50 i k = ValueIdx.ix2 ⟨(i 0).val, (i 0).isLt⟩ k :=
    funext fun a => Fin.ext (by match a with | ⟨0, _⟩ => rfl | ⟨1, _⟩ => rfl)
  have er : ridx_main_v50 i k = ValueIdx.ix2 k ⟨(i 1).val, (i 1).isLt⟩ :=
    funext fun a => Fin.ext (by match a with | ⟨0, _⟩ => rfl | ⟨1, _⟩ => rfl)
  exact congrArg₂ (· * ·) (congrArg y el) (congrArg x4 er)

variable (V : (c : Dev nD) → (b : Ref sig .tc) → Buf (Elt Ideal) ((c : Thread nD τ).loc b))

/-- What point `t` writes back is block `t` of the product of the two arrays as the region finds them. -/
theorem wrote2 (c : Dev nD) (t : Fin cfg2.N) :
    (dat2 (F := Ideal) V c).flushed 2 t = ((cfg2.win 2).blk t).view.read (Elt Ideal) (rowsTimes (V c main_v47) (V c main_arg4)) := by
  show (cfg2.win 2).cut (grid2.coords t) ((dat2 V c).after 2 t) = _
  rw [after2_2]
  unfold out2_2
  rw [View.canon_unit_zero zeroOff2]
  simp only [View.ld_unit_zero (S := S10000x128) zeroOff2, View.ld_unit_zero (S := S128x32) zeroOff2]
  obtain ⟨e0, e1, e2, e3, e4, e5⟩ := blockIdx2 t
  funext j
  obtain ⟨p, q, rfl⟩ : ∃ (p : Fin 10000) (q : Fin 32), j = ValueIdx.ix2 p q := ⟨j 0, j 1, ValueIdx.eq_ix2 j⟩
  have hx : (cfg2.win 2).xinj (grid2.coords t) (ValueIdx.ix2 p q) = ValueIdx.ix2 p q :=
    funext fun a => Fin.ext (by match a with | ⟨0, _⟩ => rfl | ⟨1, _⟩ => rfl)
  show k2_pay1 (iblk2 V c 0 t) (iblk2 V c 1 t) ((cfg2.win 2).xinj (grid2.coords t) (ValueIdx.ix2 p q))
    = rowsTimes (V c main_v47) (V c main_arg4) (((cfg2.win 2).blk t).view.emb (ValueIdx.ix2 p q))
  rw [hx]
  refine (blockProd_apply _ _ p q).trans ?_
  unfold rowsTimes
  refine Finset.sum_congr rfl fun k _ => ?_
  refine congrArg₂ (· * ·) ?_ ?_
  · show V c main_v47 (((cfg2.win 0).blk t).view.emb (ValueIdx.ix2 p k)) = V c main_v47 _
    refine congrArg (V c main_v47) (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 128 + 1 * k.val = k.val
      omega
  · show V c main_arg4 (((cfg2.win 1).blk t).view.emb (ValueIdx.ix2 k q)) = V c main_arg4 _
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 32 + 1 * q.val = win2_2.index t (1 : Fin 2) * 32 + 1 * q.val
      omega

/-- An index of the array is in point `t`'s block iff each coordinate is in the block's range on its axis. -/
theorem inBlock2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- Every one of the ten row blocks is some point's. -/
theorem pointOfBlock2 : ∀ r : Fin 10, ∃ t : Fin cfg2.N, win2_2.index t = ![r.val, 0] :=
  (by decide +kernel : ∀ r : Fin 10, ∃ t : Fin grid2.N, win2_2.index t = ![r.val, 0])

/-- The ten blocks of 10000 rows fill the array: row `r` lies in the block of index `r / 10000`. -/
theorem covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := pointOfBlock2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [inBlock2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- The output array after the region: the product of the two arrays as the region finds them. -/
theorem arr2 (c : Dev nD) :
    (dat2 (F := Ideal) V c).arrAt 2 cfg2.N = rowsTimes (V c main_v47) (V c main_arg4) :=
  (dat2 V c).arrAt_eq_of_cover 2 _ (fun t _ => wrote2 V c t) covered2

/-- The second dense layer's product, over the first layer's rectified output. -/
theorem final2 (c : Dev nD) (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal))
    (h47 : V c main_v47 = val_main_v49 (F := Ideal) x0 x1 x2 x3)
    (h4 : V c main_arg4 = x4) :
    (dat2 (F := Ideal) V c).arrAt 2 cfg2.N = val_main_v50 (F := Ideal) x0 x1 x2 x3 x4 := by
  rw [refProd2, ← h47, ← h4]
  exact arr2 V c

end Cert.KernelIdeal.KV

end
-- ==== Proof.Reg3.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable (V : (c : Dev nD) → (b : Ref sig .tc) → Buf (Elt Ideal) ((c : Thread nD τ).loc b))

namespace Reg3

/-- The body's arithmetic at one index: the block entry plus the bias of its column, then the rectifier. -/
theorem biasRelu_pay_apply (x0 : Vec Ideal S10000x32 .f32) (x1 : Vec Ideal S1x32 .f32) (p : Fin 10000) (q : Fin 32) :
    k3_pay1 (F := Ideal) x0 x1 (ValueIdx.ix2 p q)
      = max (x0 (ValueIdx.ix2 p q) + x1 (ValueIdx.ix2 0 q)) (Ideal.ofBits .f32 0x00000000#32) := by
  unfold k3_pay1
  rw [shapeCast_self, shapeCast_self]
  have hb : broadcastTo S10000x32 x1 broadcasts_S1x32_S10000x32 (ValueIdx.ix2 p q) = x1 (ValueIdx.ix2 0 q) :=
    broadcastTo_apply x1 _ _ _ (fun a => match a with
      | ⟨0, _⟩ => by show (0 : Nat) = if (1 : Nat) = 1 then 0 else _; rw [if_pos rfl]
      | ⟨1, _⟩ => by show q.val = if (32 : Nat) = 1 then 0 else _; rw [if_neg (by decide)]; rfl)
  refine (ValueIdx.maximumf_apply _ _ _).trans ?_
  rw [ValueIdx.addf_apply, ValueIdx.broadcast_apply, hb]
  rfl

/-- Entry plus the bias of its column, rectified: the layer's result as one function of the summed
    neighbourhood array and the bias row. -/
def biasReluOf (a : S100000x32.Idx → Elt Ideal .f32) (b : S1x32.Idx → Elt Ideal .f32) : S100000x32.Idx → Elt Ideal .f32 :=
  fun i => max (a i + b (ValueIdx.ix2 0 ⟨(i 1).val, (i 1).isLt⟩)) (Ideal.ofBits .f32 0x00000000#32)

theorem biasReluOf_apply (a : S100000x32.Idx → Elt Ideal .f32) (b : S1x32.Idx → Elt Ideal .f32) (i : S100000x32.Idx) :
    biasReluOf a b i = max (a i + b (ValueIdx.ix2 0 ⟨(i 1).val, (i 1).isLt⟩)) (Ideal.ofBits .f32 0x00000000#32) := rfl

/-- The body's one store starts at the block's origin. -/
theorem zero_off : (![0, 0] : Fin 2 → Nat) = fun _ => 0 := funext fun a => by fin_cases a <;> rfl

/-- The block index maps over the ten points: the input and output row blocks are block `t` of their arrays, column block 0;
    the bias row is the whole array at every point. -/
theorem idx_rows3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the rectified biased array: the output's block and the input's block sit at
    the same rows, and the bias row is read at the entry's column. -/
theorem flushed_biasRelu (c : Dev nD) (t : Fin cfg3.N) :
    (dat3 (F := Ideal) V c).flushed 2 t
      = ((cfg3.win 2).blk t).view.read (Elt Ideal) (biasReluOf (V c main_v60) (V c main_v61)) := by
  show (cfg3.win 2).cut (grid3.coords t) ((dat3 (F := Ideal) V c).after 2 t) = _
  rw [after3_2]
  unfold out3_2
  rw [View.canon_unit_zero zero_off]
  simp only [View.ld_unit_zero (S := S10000x32) zero_off, View.ld_unit_zero (S := S1x32) zero_off]
  funext j
  obtain ⟨p, q, rfl⟩ : ∃ (p : Fin 10000) (q : Fin 32), j = ValueIdx.ix2 p q := ⟨j 0, j 1, ValueIdx.eq_ix2 j⟩
  show k3_pay1 (F := Ideal) (iblk3 V c 0 t) (iblk3 V c 1 t) (ValueIdx.ix2 p q) = biasReluOf (V c main_v60) (V c main_v61) (((cfg3.win 2).blk t).view.emb (ValueIdx.ix2 p q))
  rw [biasRelu_pay_apply]
  obtain ⟨e00, e01, e10, e11, e20, e21⟩ := idx_rows3 t
  have h0 : iblk3 V c 0 t (ValueIdx.ix2 p q) = V c main_v60 (((cfg3.win 2).blk t).view.emb (ValueIdx.ix2 p q)) := by
    show V c main_v60 (((cfg3.win 0).blk t).view.emb (ValueIdx.ix2 p q)) = _
    refine congrArg (V c main_v60) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * q.val = win3_2.index t (1 : Fin 2) * 32 + 1 * q.val; omega
  have h1 : iblk3 V c 1 t (ValueIdx.ix2 0 q) = V c main_v61 (ValueIdx.ix2 0 ⟨((((cfg3.win 2).blk t).view.emb (ValueIdx.ix2 p q)) 1).val, ((((cfg3.win 2).blk t).view.emb (ValueIdx.ix2 p q)) 1).isLt⟩) := by
    show V c main_v61 (((cfg3.win 1).blk t).view.emb (ValueIdx.ix2 0 q)) = _
    refine congrArg (V c main_v61) (funext fun a => Fin.ext ?_)
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [h0, h1]
  rfl

/-- Membership in a point's output block, axis by axis. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v62).slice (win3_2.rect t)).set ↔ _
  rw [View.set_slice_whole, Rect.mem_set_unit]
  exact Iff.rfl

/-- Row `r` lies in the block of point `r / 10000`: the ten row blocks tile the array. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : (i 0).val / 10000 < grid3.N := by rw [N_3]; omega
  obtain ⟨-, -, -, -, e20, e21⟩ := idx_rows3 ⟨(i 0).val / 10000, hN⟩
  refine ⟨⟨(i 0).val / 10000, hN⟩, flush3_2 _, ?_⟩
  rw [mem_blk3]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win3_2.index ⟨(i 0).val / 10000, hN⟩ (1 : Fin 2) * 32 ≤ (i 1).val ∧ (i 1).val < win3_2.index ⟨(i 0).val / 10000, hN⟩ (1 : Fin 2) * 32 + 32
    rw [e21]; omega

/-- The output array after the region: every entry is its input entry plus the bias of its column, rectified. -/
theorem arr_biasRelu (c : Dev nD) :
    (dat3 (F := Ideal) V c).arrAt 2 cfg3.N = biasReluOf (V c main_v60) (V c main_v61) :=
  (dat3 (F := Ideal) V c).arrAt_eq_of_cover 2 _ (fun t _ => flushed_biasRelu V c t) cover3

/-- The reference's stage after the bias and the rectifier, at one index. -/
theorem ref_biasRelu_apply (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal))
    (i : Cert.ReferenceIdeal.S100000x32.Idx) :
    val_main_v67 (F := Ideal) x0 x1 x2 x3 x4 x5 i
      = max (val_main_v63 (F := Ideal) x0 x1 x2 x3 x4 i + x5 (ValueIdx.ix1 ⟨(i 1).val, (i 1).isLt⟩)) (Ideal.ofBits .f32 0x00000000#32) := by
  rw [val_main_v67_apply, val_main_v66_apply, val_main_call2_v0_apply, val_main_call2_cst_apply, val_main_v65_apply, val_main_v64_apply]
  have hi : idx_main_v64 (idx_main_v65 i) = ValueIdx.ix1 ⟨(i 1).val, (i 1).isLt⟩ :=
    funext fun a => match a with | ⟨0, _⟩ => rfl
  rw [hi]
  rfl

end Reg3

/-- Bias and rectifier of the second layer. -/
theorem final3 (c : Dev nD) (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal))
    (h60 : V c main_v60 = val_main_v63 (F := Ideal) x0 x1 x2 x3 x4)
    (h61 : ∀ j : S1x32.Idx, V c main_v61 j = x5 (ValueIdx.ix1 (j 1))) :
    (dat3 (F := Ideal) V c).arrAt 2 cfg3.N = val_main_v67 (F := Ideal) x0 x1 x2 x3 x4 x5 := by
  rw [Reg3.arr_biasRelu]
  funext i
  rw [Reg3.ref_biasRelu_apply]
  rw [Reg3.biasReluOf_apply, congrFun h60 i, h61]

end Cert.KernelIdeal.KV

end
-- ==== Proof.Reg4.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable (V : (c : Dev nD) → (b : Ref sig .tc) → Buf (Elt Ideal) ((c : Thread nD τ).loc b))

/-! ## The block product at an index -/

/-- The block product's left operand is read at the result's row. -/
theorem lhs_blk4_0 (i : S20000x3.Idx) (q : dot_S20000x32_S32x3_S20000x3_1_0_0_1_n_n.contr.Idx) :
    (dot_S20000x32_S32x3_S20000x3_1_0_0_1_n_n.lhsIdx i q 0).val = (i 0).val := by
  unfold DotDims.lhsIdx
  rw [dif_neg (show ¬(0 : Fin S20000x32.rank) ∈ dot_S20000x32_S32x3_S20000x3_1_0_0_1_n_n.lhsBatch by decide), dif_pos (show (0 : Fin S20000x32.rank) ∈ dot_S20000x32_S32x3_S20000x3_1_0_0_1_n_n.lhsNonContracting by decide)]
  rfl
/-- ... and at the contraction index along its columns. -/
theorem lhs_blk4_1 (i : S20000x3.Idx) (q : dot_S20000x32_S32x3_S20000x3_1_0_0_1_n_n.contr.Idx) :
    (dot_S20000x32_S32x3_S20000x3_1_0_0_1_n_n.lhsIdx i q 1).val = (q ⟨0, by decide⟩).val :=
  dot_S20000x32_S32x3_S20000x3_1_0_0_1_n_n.lhsIdx_val_of_single rfl i q
/-- The right operand is read at the contraction index along its rows, -/
theorem rhs_blk4_0 (i : S20000x3.Idx) (q : dot_S20000x32_S32x3_S20000x3_1_0_0_1_n_n.contr.Idx) :
    (dot_S20000x32_S32x3_S20000x3_1_0_0_1_n_n.rhsIdx i q 0).val = (q ⟨0, by decide⟩).val :=
  dot_S20000x32_S32x3_S20000x3_1_0_0_1_n_n.rhsIdx_val_of_single rfl i q
/-- ... and at the result's column. -/
theorem rhs_blk4_1 (i : S20000x3.Idx) (q : dot_S20000x32_S32x3_S20000x3_1_0_0_1_n_n.contr.Idx) :
    (dot_S20000x32_S32x3_S20000x3_1_0_0_1_n_n.rhsIdx i q 1).val = (i 1).val := by
  unfold DotDims.rhsIdx
  rw [dif_neg (show ¬(1 : Fin S32x3.rank) ∈ dot_S20000x32_S32x3_S20000x3_1_0_0_1_n_n.rhsBatch by decide), dif_pos (show (1 : Fin S32x3.rank) ∈ dot_S20000x32_S32x3_S20000x3_1_0_0_1_n_n.rhsNonContracting by decide)]
  rfl

/-- The body's payload at row `p`, column `q` of the block: the row of the left block against the column of the
    weight, summed over the 32 contraction indices (the roundings of the operands are the identity on extended reals,
    the accumulator is the zero splat). -/
theorem blockProduct4_apply (x0 : Vec Ideal S20000x32 .f32) (x1 : Vec Ideal S32x3 .f32) (p : Fin 20000) (q : Fin 3) :
    k4_pay1 (F := Ideal) x0 x1 (ValueIdx.ix2 p q) = ∑ k : Fin 32, x0 (ValueIdx.ix2 p k) * x1 (ValueIdx.ix2 k q) := by
  unfold k4_pay1
  rw [shapeCast_self]
  refine (Ideal.matmul_constant_zero_apply dot_S20000x32_S32x3_S20000x3_1_0_0_1_n_n none _ _ (ValueIdx.ix2 p q)).trans ?_
  rw [← Equiv.sum_comp (ValueIdx.contrEquiv1 dot_S20000x32_S32x3_S20000x3_1_0_0_1_n_n 32 rfl rfl).symm]
  refine Finset.sum_congr rfl fun k _ => ?_
  have hk := ValueIdx.contrEquiv1_symm_val dot_S20000x32_S32x3_S20000x3_1_0_0_1_n_n 32 rfl rfl k
  have el : dot_S20000x32_S32x3_S20000x3_1_0_0_1_n_n.lhsIdx (ValueIdx.ix2 p q) ((ValueIdx.contrEquiv1 dot_S20000x32_S32x3_S20000x3_1_0_0_1_n_n 32 rfl rfl).symm k) = ValueIdx.ix2 p k := funext fun a => Fin.ext (by
    match a with
    | ⟨0, _⟩ => exact lhs_blk4_0 _ _
    | ⟨1, _⟩ => exact (lhs_blk4_1 _ _).trans hk)
  have er : dot_S20000x32_S32x3_S20000x3_1_0_0_1_n_n.rhsIdx (ValueIdx.ix2 p q) ((ValueIdx.contrEquiv1 dot_S20000x32_S32x3_S20000x3_1_0_0_1_n_n 32 rfl rfl).symm k) = ValueIdx.ix2 k q := funext fun a => Fin.ext (by
    match a with
    | ⟨0, _⟩ => exact (rhs_blk4_0 _ _).trans hk
    | ⟨1, _⟩ => exact rhs_blk4_1 _ _)
  rw [ValueIdx.truncf_apply, ValueIdx.truncf_apply, el, er]

/-! ## The product as one function of the two arrays -/

/-- Row `i 0` of the activations against column `i 1` of the weight. -/
def rowsTimesWeight4 (A : S100000x32.Idx → Elt Ideal .f32) (B : S32x3.Idx → Elt Ideal .f32) : S100000x3.Idx → Elt Ideal .f32 :=
  fun i => ∑ k : Fin 32, A (ValueIdx.ix2 ⟨(i 0).val, (i 0).isLt⟩ k) * B (ValueIdx.ix2 k ⟨(i 1).val, (i 1).isLt⟩)

/-- The payload at any index of the block, its coordinates rebuilt at their literal extents. -/
theorem blockProduct4_at (x0 : Vec Ideal S20000x32 .f32) (x1 : Vec Ideal S32x3 .f32) (y : S20000x3.Idx) :
    k4_pay1 (F := Ideal) x0 x1 y
      = ∑ k : Fin 32, x0 (ValueIdx.ix2 ⟨(y 0).val, (y 0).isLt⟩ k) * x1 (ValueIdx.ix2 k ⟨(y 1).val, (y 1).isLt⟩) := by
  obtain ⟨p, q, rfl⟩ : ∃ (p : Fin 20000) (q : Fin 3), y = ValueIdx.ix2 p q := ⟨y 0, y 1, ValueIdx.eq_ix2 y⟩
  exact blockProduct4_apply x0 x1 p q

theorem offZero4 : (![0, 0] : Fin 2 → Nat) = fun _ => 0 := funext fun a => by fin_cases a <;> rfl

/-- The block index maps over the five grid points: the activations' and the result's row blocks move with the
    point, every column block index is zero, and the weight is one block. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 400000 in
/-- What point `t` writes back is block `t` of the product of the two arrays as the region finds them. -/
theorem flushed4_eq (c : Dev nD) (A : S100000x32.Idx → Elt Ideal .f32) (B : S32x3.Idx → Elt Ideal .f32)
    (hA : V c main_v62 = A) (hB : V c main_arg6 = B) (t : Fin cfg4.N) :
    (dat4 (F := Ideal) V c).flushed 2 t = ((cfg4.win 2).blk t).view.read (Elt Ideal) (rowsTimesWeight4 A B) := by
  show (cfg4.win 2).cut (grid4.coords t) ((dat4 V c).after 2 t) = _
  rw [after4_2]
  unfold out4_2
  rw [View.canon_unit_zero offZero4]
  simp only [View.ld_unit_zero (S := S20000x32) offZero4, View.ld_unit_zero (S := S32x3) offZero4]
  obtain ⟨e0, e1, e2, e3, e4, e5⟩ := blockIndex4 t
  funext j
  refine (blockProduct4_at (iblk4 V c 0 t) (iblk4 V c 1 t) ((cfg4.win 2).xinj (grid4.coords t) j)).trans ?_
  show _ = rowsTimesWeight4 A B (((cfg4.win 2).blk t).view.emb j)
  unfold rowsTimesWeight4
  refine Finset.sum_congr rfl fun k _ => congrArg₂ (· * ·) ?_ ?_
  · show V c main_v62 (((cfg4.win 0).blk t).view.emb (ValueIdx.ix2 ⟨(j 0).val, _⟩ k)) = _
    refine (congrFun hA _).trans (congrArg A ?_)
    funext a; apply Fin.ext
    match a with
    | ⟨0, _⟩ => show win4_0.index t (0 : Fin 2) * 20000 + 1 * (j 0).val = win4_2.index t (0 : Fin 2) * 20000 + 1 * (j 0).val; omega
    | ⟨1, _⟩ => show win4_0.index t (1 : Fin 2) * 32 + 1 * k.val = k.val; omega
  · show V c main_arg6 (((cfg4.win 1).blk t).view.emb (ValueIdx.ix2 k ⟨(j 1).val, _⟩)) = _
    refine (congrFun hB _).trans (congrArg B ?_)
    funext a; apply Fin.ext
    match a with
    | ⟨0, _⟩ => show win4_1.index t (0 : Fin 2) * 32 + 1 * k.val = k.val; omega
    | ⟨1, _⟩ => show win4_1.index t (1 : Fin 2) * 3 + 1 * (j 1).val = win4_2.index t (1 : Fin 2) * 3 + 1 * (j 1).val; omega

/-! ## From the blocks to the array -/

/-- An index of the result array is in point `t`'s block iff each coordinate is in the block's range on its axis. -/
theorem mem_blk4 (t : Fin cfg4.N) (i : S100000x3.Idx) :
    i ∈ ((cfg4.win 2).blk t).view.set ↔ ∀ a : Fin 2, win4_2.index t a * S20000x3.size a ≤ (i a).val ∧ (i a).val < win4_2.index t a * S20000x3.size a + S20000x3.size a := by
  show i ∈ ((View.whole main_v63).slice (win4_2.rect t)).set ↔ _
  rw [View.set_slice_whole, Rect.mem_set_unit]
  exact Iff.rfl

/-- Row `r` of the result lies in the block of point `r / 20000`, and every point writes its block back: the five
    blocks cover the array. -/
theorem cover4 (i : S100000x3.Idx) :
    ∃ t : Fin cfg4.N, (cfg4.win 2).flush t = true ∧ i ∈ ((cfg4.win 2).blk t).view.set := by
  have hi0 : (i 0).val < 100000 := (i 0).isLt
  have hi1 : (i 1).val < 3 := (i 1).isLt
  have hN : grid4.N = 5 := N_4
  have ht : (i 0).val / 20000 < grid4.N := by rw [hN]; omega
  obtain ⟨-, -, -, -, e4, e5⟩ := blockIndex4 ⟨(i 0).val / 20000, ht⟩
  have q0 : win4_2.index ⟨(i 0).val / 20000, ht⟩ (0 : Fin 2) = (i 0).val / 20000 := e4
  refine ⟨⟨(i 0).val / 20000, ht⟩, flush4_2 _, ?_⟩
  rw [mem_blk4]
  intro a
  match a with
  | ⟨0, _⟩ =>
    show win4_2.index ⟨(i 0).val / 20000, ht⟩ (0 : Fin 2) * 20000 ≤ (i 0).val ∧ (i 0).val < win4_2.index ⟨(i 0).val / 20000, ht⟩ (0 : Fin 2) * 20000 + 20000
    omega
  | ⟨1, _⟩ =>
    show win4_2.index ⟨(i 0).val / 20000, ht⟩ (1 : Fin 2) * 3 ≤ (i 1).val ∧ (i 1).val < win4_2.index ⟨(i 0).val / 20000, ht⟩ (1 : Fin 2) * 3 + 3
    omega

/-- The result array after the region: the product of the two arrays as the region finds them. -/
theorem arrAt4_eq (c : Dev nD) (A : S100000x32.Idx → Elt Ideal .f32) (B : S32x3.Idx → Elt Ideal .f32)
    (hA : V c main_v62 = A) (hB : V c main_arg6 = B) :
    (dat4 (F := Ideal) V c).arrAt 2 cfg4.N = rowsTimesWeight4 A B :=
  (dat4 V c).arrAt_eq_of_cover 2 _ (fun t _ => flushed4_eq V c A B hA hB t) cover4

/-- The third dense layer's product, over the second layer's rectified output. -/
theorem final4 (c : Dev nD) (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal)) (x6 : (⟨Cert.ReferenceIdeal.S32x3, .f32⟩ : BufTy).Contents (Elt Ideal))
    (h62 : V c main_v62 = val_main_v67 (F := Ideal) x0 x1 x2 x3 x4 x5)
    (h6 : V c main_arg6 = x6) :
    (dat4 (F := Ideal) V c).arrAt 2 cfg4.N = val_main_v68 (F := Ideal) x0 x1 x2 x3 x4 x5 x6 := by
  refine (arrAt4_eq V c (val_main_v67 (F := Ideal) x0 x1 x2 x3 x4 x5) x6 h62 h6).trans ?_
  funext i
  refine Eq.trans ?_ (val_main_v68_apply x0 x1 x2 x3 x4 x5 x6 i).symm
  generalize val_main_v67 (F := Ideal) x0 x1 x2 x3 x4 x5 = y0
  unfold rowsTimesWeight4
  refine Finset.sum_congr rfl fun k _ => congrArg₂ (· * ·) (congrArg y0 ?_) (congrArg x6 ?_)
  · funext a
    match a with
    | ⟨0, _⟩ => rfl
    | ⟨1, _⟩ => rfl
  · funext a
    match a with
    | ⟨0, _⟩ => rfl
    | ⟨1, _⟩ => rfl

end Cert.KernelIdeal.KV

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Reg5.lean ====
import proofs.«179793_j86045374808468_1_alg».proof.Proof.Gen.KernelIdeal.Frame
import proofs.«179793_j86045374808468_1_alg».proof.Proof.RefRead
import proofs.«179793_j86045374808468_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.LogSoftmax

open Idealize.ShloMosaic Idealize.ShloMosaic.ValueIdx

/-! ## The row-wise specification -/

/-- The maximum of a row of three extended reals, folded from the value the word of minus infinity encodes. -/
def rowMax (z : Fin 3 → EReal) : EReal :=
  (Finset.univ : Finset (Fin 3)).fold max (Ideal.ofBits .f32 0xFF800000#32) z

/-- Log-softmax of a row of three: the entry shifted by the row maximum, less the logarithm of the sum of the
    exponentials of the shifted row. -/
def LS (z : Fin 3 → EReal) (c : Fin 3) : EReal :=
  (z c - rowMax z) - Ideal.log (∑ k : Fin 3, Ideal.exp (z k - rowMax z))

/-- The word of minus infinity encodes the least extended real. -/
theorem ofBits_neg_inf : Ideal.ofBits .f32 0xFF800000#32 = ⊥ := by simp [Ideal.ofBits, Ideal.ieee]

/-- One more maximum with minus infinity changes nothing. -/
theorem max_neg_inf (x : EReal) : max (Ideal.ofBits .f32 0xFF800000#32) x = x := by
  rw [ofBits_neg_inf]; exact max_bot_left x

/-! ## The kernel's payload at an index -/

open Cert.KernelIdeal Cert.KernelIdeal.Gen

/-- The inserted index over row `p` of a block with column `k`. -/
theorem lift_blk (h : S20000x3.Reduces [1] S20000) (p : Fin 20000) (k : Fin 3) :
    h.lift (ix1 p) k = ix2 p k := by
  funext a
  match a with
  | ⟨0, _⟩ => exact Fin.ext rfl
  | ⟨1, _⟩ => exact Fin.ext rfl

/-- The lane maximum of a block's row is the row maximum. -/
theorem blk_rowMax (v : FVec Ideal S20000x3 .f32) (h : S20000x3.Reduces [1] S20000) (hφ : FKind.Formats .f32)
    (hacc : (0xFF800000#32 : BitVec 32) = FKind.maximumf.neutral .f32 hφ) (p : Fin 20000) :
    multiReduction .maximumf [1] S20000 v 0xFF800000#32 h hφ hacc (ix1 p) = rowMax (fun j => v (ix2 p j)) := by
  refine (Ideal.multiReduction_maximumf_single v _ h hφ hacc (ix1 p)).trans ?_
  show (Finset.univ : Finset (Fin 3)).fold max (Ideal.ofBits .f32 0xFF800000#32) (fun k => v (h.lift (ix1 p) k)) = _
  unfold rowMax
  exact congrArg (fun f : Fin 3 → EReal => (Finset.univ : Finset (Fin 3)).fold max (Ideal.ofBits .f32 0xFF800000#32) f)
    (funext fun k => congrArg v (lift_blk h p k))

/-- The lane sum of a block's row is the sum over its three columns. -/
theorem blk_rowSum (v : FVec Ideal S20000x3 .f32) (h : S20000x3.Reduces [1] S20000) (hφ : FKind.Formats .f32)
    (hacc : (0x00000000#32 : BitVec 32) = FKind.add.neutral .f32 hφ) (p : Fin 20000) :
    multiReduction .add [1] S20000 v 0x00000000#32 h hφ hacc (ix1 p) = ∑ k : Fin 3, v (ix2 p k) := by
  refine (Ideal.multiReduction_add_single v _ h hφ hacc (ix1 p)).trans ?_
  show ∑ k : Fin 3, v (h.lift (ix1 p) k) = _
  exact Finset.sum_congr rfl fun k _ => congrArg v (lift_blk h p k)

/-- An exponential of a vector, at an index, is the exponential of the entry. -/
theorem vexp_apply {s : Shape} {φ : FTy} (x : FVec Ideal s φ) (i : s.Idx) : exp x i = Ideal.exp (x i) := rfl
/-- A logarithm of a vector, at an index, is the logarithm of the entry. -/
theorem vlog_apply {s : Shape} {φ : FTy} (x : FVec Ideal s φ) (i : s.Idx) : log x i = Ideal.log (x i) := rfl

/-- The block with the bias row laid over every row. -/
def biased (x0 : Vec Ideal S20000x3 .f32) (x1 : Vec Ideal S1x3 .f32) : FVec Ideal S20000x3 .f32 :=
  addf (shapeCast S20000x3 x0 shapeCasts_S20000x3_S20000x3)
    (broadcastTo S20000x3 (shapeCast S1x3 x1 shapeCasts_S1x3_S1x3) broadcasts_S1x3_S20000x3)

/-- Entry `(p, j)` of it is the block's entry plus the bias row's at `j`. -/
theorem biased_apply (x0 : Vec Ideal S20000x3 .f32) (x1 : Vec Ideal S1x3 .f32) (p : Fin 20000) (j : Fin 3) :
    biased x0 x1 (ix2 p j) = x0 (ix2 p j) + x1 (ix2 (0 : Fin 1) j) := by
  unfold biased
  rw [addf_apply, shapeCast_self, shapeCast_self]
  exact congrArg (x0 (ix2 p j) + ·) (broadcastTo_1b_ab_apply x1 _ p j)

/-- A block less its row maxima, the maxima kept as a column and laid back across the columns. -/
def shifted (v : FVec Ideal S20000x3 .f32) : FVec Ideal S20000x3 .f32 :=
  subf v (broadcastTo S20000x3 (shapeCast S20000x1
    (multiReduction .maximumf [1] S20000 v 0xFF800000#32 reduces_S20000x3_S20000 (.inl rfl) rfl)
    shapeCasts_S20000_S20000x1) broadcasts_S20000x1_S20000x3)

/-- Entry `(p, j)` of it is the entry less its row's maximum. -/
theorem shifted_apply (v : FVec Ideal S20000x3 .f32) (p : Fin 20000) (j : Fin 3) :
    shifted v (ix2 p j) = v (ix2 p j) - rowMax (fun k => v (ix2 p k)) := by
  unfold shifted
  rw [subf_apply]
  exact congrArg (v (ix2 p j) - ·)
    ((Cert.LibColumn.broadcastTo_column_apply _ _ _ p j).trans (blk_rowMax v _ _ _ p))

/-- The logarithm of each row's sum of exponentials, kept as a column and laid back across the columns. -/
def logSumExp (s : FVec Ideal S20000x3 .f32) : FVec Ideal S20000x3 .f32 :=
  broadcastTo S20000x3 (log (shapeCast S20000x1
    (multiReduction .add [1] S20000 (exp s) 0x00000000#32 reduces_S20000x3_S20000 (.inl rfl) rfl)
    shapeCasts_S20000_S20000x1)) broadcasts_S20000x1_S20000x3

/-- Entry `(p, q)` of it is the logarithm of the sum over row `p` of the exponentials. -/
theorem logSumExp_apply (s : FVec Ideal S20000x3 .f32) (p : Fin 20000) (q : Fin 3) :
    logSumExp s (ix2 p q) = Ideal.log (∑ k : Fin 3, Ideal.exp (s (ix2 p k))) := by
  unfold logSumExp
  refine (Cert.LibColumn.broadcastTo_a1_ab_apply _ _ p q).trans ?_
  refine (vlog_apply _ _).trans (congrArg Ideal.log ?_)
  refine (Cert.LibColumn.shapeCast_a_a1_apply _ _ p 0).trans ?_
  exact blk_rowSum _ _ _ _ p

/-- The body's payload is the shifted biased block less its logarithm of the sum of exponentials. -/
theorem pay_eq (x0 : Vec Ideal S20000x3 .f32) (x1 : Vec Ideal S1x3 .f32) :
    k5_pay1 (F := Ideal) x0 x1 = subf (shifted (biased x0 x1)) (logSumExp (shifted (biased x0 x1))) := rfl

/-- THE PAYLOAD AT AN INDEX: the row-wise log-softmax of the biased row. -/
theorem pay_apply (x0 : Vec Ideal S20000x3 .f32) (x1 : Vec Ideal S1x3 .f32) (p : Fin 20000) (q : Fin 3) :
    k5_pay1 (F := Ideal) x0 x1 (ix2 p q) = LS (fun j => x0 (ix2 p j) + x1 (ix2 (0 : Fin 1) j)) q := by
  rw [pay_eq, subf_apply, logSumExp_apply, shifted_apply]
  simp only [shifted_apply, biased_apply]
  rfl

/-! ## From blocks to the array -/

section Blocks

open Idealize.ShloMosaic.TcCoe Idealize.SL.Sem
open Idealize.ShloMosaic.Pipeline (Dat Cfg Window)

variable (V : (c : Dev nD) → (b : Ref sig .tc) → Buf (Elt Ideal) ((c : Thread nD τ).loc b))

/-- The body's rectangles sit at the zero offsets. -/
theorem zero_off : (![0, 0] : Fin 2 → Nat) = fun _ => 0 := funext fun a => by fin_cases a <;> rfl

/-- The printed index maps over the five points: the row blocks of windows 0 and 2 are block `(t, 0)`, the bias
    row's window is the whole array at `(0, 0)`. -/
theorem blockIndex : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of any array `G` that is, row by row, the log-softmax of the rows of `A`
    (what the region finds in the aggregated array) biased by the row `B` (what it finds in the bias row's array). -/
theorem flushed_of (c : Dev nD) (A : Vec Ideal S100000x3 .f32) (B : Vec Ideal S1x3 .f32)
    (hA : V c main_v75 = A) (hB : V c main_v76 = B)
    (G : Vec Ideal S100000x3 .f32)
    (hG : ∀ (r : Fin 100000) (q : Fin 3), G (ix2 r q) = LS (fun j => A (ix2 r j) + B (ix2 (0 : Fin 1) j)) q)
    (t : Fin cfg5.N) :
    (dat5 (F := Ideal) V c).flushed 2 t = ((cfg5.win 2).blk t).view.read (Elt Ideal) G := by
  show (cfg5.win 2).cut (grid5.coords t) ((dat5 V c).after 2 t) = _
  rw [after5_2]
  unfold out5_2
  rw [View.canon_unit_zero zero_off]
  simp only [View.ld_unit_zero (S := S20000x3) zero_off, View.ld_unit_zero (S := S1x3) zero_off]
  obtain ⟨e0, e1, e2, e3, e4, e5⟩ := blockIndex t
  have ht : t.val < 5 := t.isLt
  funext j
  obtain ⟨p, q, rfl⟩ : ∃ (p : Fin 20000) (q : Fin 3), j = ix2 p q := ⟨j 0, j 1, eq_ix2 j⟩
  have hp : p.val < 20000 := p.isLt
  show k5_pay1 (F := Ideal) (iblk5 V c 0 t) (iblk5 V c 1 t) (ix2 p q) = G (((cfg5.win 2).blk t).view.emb (ix2 p q))
  refine (pay_apply _ _ p q).trans ?_
  have hemb : ((cfg5.win 2).blk t).view.emb (ix2 p q) = ix2 (⟨t.val * 20000 + p.val, by omega⟩ : Fin 100000) q := by
    funext a; apply Fin.ext
    match a with
    | ⟨0, _⟩ => show win5_2.index t (0 : Fin 2) * 20000 + 1 * p.val = t.val * 20000 + p.val; omega
    | ⟨1, _⟩ => show win5_2.index t (1 : Fin 2) * 3 + 1 * q.val = q.val; omega
  rw [hemb, hG]
  refine congrArg (fun z => LS z q) (funext fun j => ?_)
  have h0 : iblk5 V c 0 t (ix2 p j) = A (ix2 (⟨t.val * 20000 + p.val, by omega⟩ : Fin 100000) j) := by
    show V c main_v75 (((cfg5.win 0).blk t).view.emb (ix2 p j)) = _
    rw [hA]
    refine congrArg A ?_
    funext a; apply Fin.ext
    match a with
    | ⟨0, _⟩ => show win5_0.index t (0 : Fin 2) * 20000 + 1 * p.val = t.val * 20000 + p.val; omega
    | ⟨1, _⟩ => show win5_0.index t (1 : Fin 2) * 3 + 1 * j.val = j.val; omega
  have h1 : iblk5 V c 1 t (ix2 (0 : Fin 1) j) = B (ix2 (0 : Fin 1) j) := by
    show V c main_v76 (((cfg5.win 1).blk t).view.emb (ix2 (0 : Fin 1) j)) = _
    rw [hB]
    refine congrArg B ?_
    funext a; apply Fin.ext
    match a with
    | ⟨0, _⟩ => show win5_1.index t (0 : Fin 2) * 1 + 1 * 0 = 0; omega
    | ⟨1, _⟩ => show win5_1.index t (1 : Fin 2) * 3 + 1 * j.val = j.val; omega
  exact congrArg₂ (fun a b : EReal => a + b) h0 h1

/-- An index of the array is in point `t`'s block iff each coordinate is in the block's range on its axis. -/
theorem mem_blk (t : Fin cfg5.N) (i : S100000x3.Idx) :
    i ∈ ((cfg5.win 2).blk t).view.set ↔ ∀ a : Fin 2, win5_2.index t a * S20000x3.size a ≤ (i a).val ∧ (i a).val < win5_2.index t a * S20000x3.size a + S20000x3.size a := by
  show i ∈ ((View.whole main_v77).slice (win5_2.rect t)).set ↔ _
  rw [View.set_slice_whole, Rect.mem_set_unit]
  exact Iff.rfl

/-- Row `r` lies in the block of point `r / 20000`: the five row blocks tile the array. -/
theorem cover (i : S100000x3.Idx) :
    ∃ t : Fin cfg5.N, (cfg5.win 2).flush t = true ∧ i ∈ ((cfg5.win 2).blk t).view.set := by
  have hi0 : (i 0).val < 100000 := (i 0).isLt
  have hi1 : (i 1).val < 3 := (i 1).isLt
  refine ⟨⟨(i 0).val / 20000, by show (i 0).val / 20000 < 5; omega⟩, flush5_2 _, ?_⟩
  rw [mem_blk]
  obtain ⟨-, -, -, -, e4, e5⟩ := blockIndex ⟨(i 0).val / 20000, by show (i 0).val / 20000 < 5; omega⟩
  intro a
  match a with
  | ⟨0, _⟩ =>
    show win5_2.index _ (0 : Fin 2) * 20000 ≤ (i 0).val ∧ (i 0).val < win5_2.index _ (0 : Fin 2) * 20000 + 20000
    rw [e4]; show (i 0).val / 20000 * 20000 ≤ (i 0).val ∧ (i 0).val < (i 0).val / 20000 * 20000 + 20000; omega
  | ⟨1, _⟩ =>
    show win5_2.index _ (1 : Fin 2) * 3 ≤ (i 1).val ∧ (i 1).val < win5_2.index _ (1 : Fin 2) * 3 + 3
    rw [e5]; omega

/-- THE ARRAY after the region's run is `G`. -/
theorem arr_of (c : Dev nD) (A : Vec Ideal S100000x3 .f32) (B : Vec Ideal S1x3 .f32)
    (hA : V c main_v75 = A) (hB : V c main_v76 = B)
    (G : Vec Ideal S100000x3 .f32)
    (hG : ∀ (r : Fin 100000) (q : Fin 3), G (ix2 r q) = LS (fun j => A (ix2 r j) + B (ix2 (0 : Fin 1) j)) q) :
    (dat5 (F := Ideal) V c).arrAt 2 cfg5.N = G :=
  (dat5 V c).arrAt_eq_of_cover 2 G (fun t _ => flushed_of V c A B hA hB G hG t) cover

end Blocks

open Idealize.ShloMosaic.TcCoe Idealize.SL.Sem Cert.ReferenceIdeal.ReadP

/-! ## The reference's last stage at an index -/

section Reference
variable (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal)) (x6 : (⟨Cert.ReferenceIdeal.S32x3, .f32⟩ : BufTy).Contents (Elt Ideal)) (x7 : (⟨Cert.ReferenceIdeal.S3, .f32⟩ : BufTy).Contents (Elt Ideal))

/-- The biased aggregate at `(r, j)`: the aggregate's entry plus the bias at `j`. -/
theorem ref_biased (r : Fin 100000) (j : Fin 3) :
    val_main_v84 (F := Ideal) x0 x1 x2 x3 x4 x5 x6 x7 (ix2 r j) = val_main_v81 (F := Ideal) x0 x1 x2 x3 x4 x5 x6 (ix2 r j) + x7 (ix1 j) := by
  rw [val_main_v84_apply, val_main_v83_apply, val_main_v82_apply]
  show val_main_v81 (F := Ideal) x0 x1 x2 x3 x4 x5 x6 (ix2 r j) + x7 (idx_main_v82 (idx_main_v83 (ix2 r j))) = _
  exact congrArg (fun i => val_main_v81 (F := Ideal) x0 x1 x2 x3 x4 x5 x6 (ix2 r j) + x7 i)
    (funext fun a => by match a with | ⟨0, _⟩ => rfl)

/-- The reduce over the three columns, and the further maximum with minus infinity, give the row maximum. -/
theorem ref_rowMax (r : Fin 100000) :
    val_main_call3_v2 (F := Ideal) x0 x1 x2 x3 x4 x5 x6 x7 (ix1 r) = rowMax (fun j => val_main_v84 (F := Ideal) x0 x1 x2 x3 x4 x5 x6 x7 (ix2 r j)) := by
  rw [val_main_call3_v2_apply, val_main_call3_v1_apply, val_main_call3_cst_0_apply]
  show max (Ideal.ofBits .f32 0xFF800000#32) (val_main_call3_v0 (F := Ideal) x0 x1 x2 x3 x4 x5 x6 x7 (ix1 r)) = _
  rw [max_neg_inf]
  unfold val_main_call3_v0
  generalize val_main_v84 (F := Ideal) x0 x1 x2 x3 x4 x5 x6 x7 = z
  have hred : Cert.ReferenceIdeal.S100000x3.Reduces [1] Cert.ReferenceIdeal.S100000 := by decide
  refine (Host.reduce_eq_fold_single (α := Ideal .f32) (FloatOps.maximumf (F := Ideal) (φ := .f32)) z _ _ hred _ (ix1 r)).trans ?_
  show (Finset.univ : Finset (Fin 3)).fold max (Ideal.ofBits .f32 0xFF800000#32) (fun k => z (hred.lift (ix1 r) k)) = _
  unfold rowMax
  exact congrArg (fun f : Fin 3 → EReal => (Finset.univ : Finset (Fin 3)).fold max (Ideal.ofBits .f32 0xFF800000#32) f)
    (funext fun k => congrArg z (funext fun a => by
      match a with
      | ⟨0, _⟩ => exact Fin.ext rfl
      | ⟨1, _⟩ => exact Fin.ext rfl))

/-- The shifted entry at `(r, j)`. -/
theorem ref_shifted (r : Fin 100000) (j : Fin 3) :
    val_main_call3_v5 (F := Ideal) x0 x1 x2 x3 x4 x5 x6 x7 (ix2 r j)
      = val_main_v84 (F := Ideal) x0 x1 x2 x3 x4 x5 x6 x7 (ix2 r j) - rowMax (fun k => val_main_v84 (F := Ideal) x0 x1 x2 x3 x4 x5 x6 x7 (ix2 r k)) := by
  have hidx : idx_main_call3_v3 (idx_main_call3_v4 (ix2 r j)) = ix1 r :=
    funext fun a => by match a with | ⟨0, _⟩ => rfl
  rw [val_main_call3_v5_apply, val_main_call3_v4_apply, val_main_call3_v3_apply, hidx, ref_rowMax, Ideal.subf_def]

/-- The shifted entry at `(r, j)`, over the aggregate and the bias. -/
theorem ref_shifted_row (r : Fin 100000) (j : Fin 3) :
    val_main_call3_v5 (F := Ideal) x0 x1 x2 x3 x4 x5 x6 x7 (ix2 r j)
      = (val_main_v81 (F := Ideal) x0 x1 x2 x3 x4 x5 x6 (ix2 r j) + x7 (ix1 j)) - rowMax (fun k => val_main_v81 (F := Ideal) x0 x1 x2 x3 x4 x5 x6 (ix2 r k) + x7 (ix1 k)) := by
  have hrow : (fun k => val_main_v84 (F := Ideal) x0 x1 x2 x3 x4 x5 x6 x7 (ix2 r k)) = fun k => val_main_v81 (F := Ideal) x0 x1 x2 x3 x4 x5 x6 (ix2 r k) + x7 (ix1 k) :=
    funext fun k => ref_biased x0 x1 x2 x3 x4 x5 x6 x7 r k
  rw [ref_shifted, ref_biased, hrow]

/-- THE REFERENCE AT AN INDEX: the row-wise log-softmax of the biased row of the aggregate. -/
theorem ref_apply (r : Fin 100000) (q : Fin 3) :
    val_main_v85 (F := Ideal) x0 x1 x2 x3 x4 x5 x6 x7 (ix2 r q)
      = LS (fun j => val_main_v81 (F := Ideal) x0 x1 x2 x3 x4 x5 x6 (ix2 r j) + x7 (ix1 j)) q := by
  have hidx : ∀ k : Fin 3, idx_main_call3_v7 (idx_main_call3_v8 (idx_main_call3_v10 (ix2 r q))) k = ix2 r k :=
    fun k => funext fun a => by match a with | ⟨0, _⟩ => rfl | ⟨1, _⟩ => rfl
  rw [val_main_v85_apply, val_main_call3_v10_apply, val_main_call3_v9_apply, val_main_call3_v8_apply,
    val_main_call3_v7_apply, val_main_call3_cst_1_apply, ref_shifted_row, Ideal.subf_def, Ideal.hostUnary_log_def,
    Ideal.ofBits_def, Ideal.ofBits_zero_f32, zero_add]
  have hsum : ∑ k : Fin 3, val_main_call3_v6 (F := Ideal) x0 x1 x2 x3 x4 x5 x6 x7 (idx_main_call3_v7 (idx_main_call3_v8 (idx_main_call3_v10 (ix2 r q))) k)
      = ∑ k : Fin 3, Ideal.exp ((val_main_v81 (F := Ideal) x0 x1 x2 x3 x4 x5 x6 (ix2 r k) + x7 (ix1 k)) - rowMax (fun k => val_main_v81 (F := Ideal) x0 x1 x2 x3 x4 x5 x6 (ix2 r k) + x7 (ix1 k))) :=
    Finset.sum_congr rfl fun k _ => by
      rw [hidx k, val_main_call3_v6_apply, ref_shifted_row, Ideal.hostUnary_exp_def]
  rw [hsum]
  generalize val_main_v81 (F := Ideal) x0 x1 x2 x3 x4 x5 x6 = A
  rfl

end Reference

end Cert.KernelIdeal.LogSoftmax

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable (V : (c : Dev nD) → (b : Ref sig .tc) → Buf (Elt Ideal) ((c : Thread nD τ).loc b))

/-- Bias and row-wise log-softmax of the last layer. -/
theorem final5 (c : Dev nD) (x0 : (⟨Cert.ReferenceIdeal.S100000x500, .f32⟩ : BufTy).Contents (Elt Ideal)) (x1 : (⟨Cert.ReferenceIdeal.S2x1600000, .i32⟩ : BufTy).Contents (Elt Ideal)) (x2 : (⟨Cert.ReferenceIdeal.S500x128, .f32⟩ : BufTy).Contents (Elt Ideal)) (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal)) (x6 : (⟨Cert.ReferenceIdeal.S32x3, .f32⟩ : BufTy).Contents (Elt Ideal)) (x7 : (⟨Cert.ReferenceIdeal.S3, .f32⟩ : BufTy).Contents (Elt Ideal))
    (h75 : V c main_v75 = val_main_v81 (F := Ideal) x0 x1 x2 x3 x4 x5 x6)
    (h76 : ∀ j : S1x3.Idx, V c main_v76 j = x7 (ValueIdx.ix1 (j 1))) :
    (dat5 (F := Ideal) V c).arrAt 2 cfg5.N = val_main_v85 (F := Ideal) x0 x1 x2 x3 x4 x5 x6 x7 := by
  refine LogSoftmax.arr_of V c (val_main_v81 (F := Ideal) x0 x1 x2 x3 x4 x5 x6) (fun j => x7 (ValueIdx.ix1 (j 1)))
    h75 (funext h76) (val_main_v85 (F := Ideal) x0 x1 x2 x3 x4 x5 x6 x7) (fun r q => ?_)
  exact LogSoftmax.ref_apply x0 x1 x2 x3 x4 x5 x6 x7 r q

end Cert.KernelIdeal.KV

end
-- ==== Proof.Chain.lean ====
import proofs.«179793_j86045374808468_1_alg».proof.Proof.Gen.KernelIdeal.Frame
import proofs.«179793_j86045374808468_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«179793_j86045374808468_1_alg».proof.Proof.Walk
import proofs.«179793_j86045374808468_1_alg».proof.Proof.HostPre
import proofs.«179793_j86045374808468_1_alg».proof.Proof.Host1
import proofs.«179793_j86045374808468_1_alg».proof.Proof.Host3
import proofs.«179793_j86045374808468_1_alg».proof.Proof.Host5
import proofs.«179793_j86045374808468_1_alg».proof.Proof.Reg0
import proofs.«179793_j86045374808468_1_alg».proof.Proof.Reg1
import proofs.«179793_j86045374808468_1_alg».proof.Proof.Reg2
import proofs.«179793_j86045374808468_1_alg».proof.Proof.Reg3
import proofs.«179793_j86045374808468_1_alg».proof.Proof.Reg4
import proofs.«179793_j86045374808468_1_alg».proof.Proof.Reg5

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen Cert.ReferenceIdeal.ReadP

variable (m : (ℓ : Loc nD τ sig) → Buf (Elt Ideal) ℓ) (ρ : Dev nD → PrngReg)

/-! The value of the six-region program, boundary by boundary: at each boundary the buffer the next item reads
    holds the reference's stage of the same name, as a function of the eight argument arrays. The three dense
    products, the two rectified layers and the final log-softmax come from the kernels' regions; the three
    neighbourhood sums from the host stretches between them. -/

/-- The argument arrays at launch. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-- After the first kernel: x · W1. -/
theorem at_v33 (c : Dev nD) :
    W4 m ρ c (Proc.devRef .tc main_v33) = val_main_v32 (F := Ideal) (a0 m c) (a2 m c) := by
  refine (W4_arr m ρ c 2).trans ((final0 (V3 m ρ) c).trans ?_)
  rw [show V3 m ρ c main_arg0 = a0 m c from W3_arg0 m ρ c, show V3 m ρ c main_arg2 = a2 m c from W3_arg2 m ρ c]

/-- The first neighbourhood sum. -/
theorem at_v45 (c : Dev nD) :
    W5 m ρ c (Proc.devRef .tc main_v45) = val_main_v45 (F := Ideal) (a0 m c) (a1 m c) (a2 m c) :=
  host1_agg m ρ c _ _ _ (at_v33 m ρ c) ((W4_v3 m ρ c).trans (W3_v3 m ρ c)) ((W4_v6 m ρ c).trans (W3_v6 m ρ c))
    ((W4_v32 m ρ c).trans (W3_v32 m ρ c))

theorem at_v46 (c : Dev nD) (j : S1x128.Idx) :
    (W5 m ρ c (Proc.devRef .tc main_v46) : S1x128.Idx → Elt Ideal .f32) j = a3 m c (ValueIdx.ix1 (j 1)) :=
  (host1_bias m ρ c j).trans (congrFun (W4_arg3 m ρ c) _)

/-- The first rectified layer. -/
theorem at_v47 (c : Dev nD) :
    W6 m ρ c (Proc.devRef .tc main_v47) = val_main_v49 (F := Ideal) (a0 m c) (a1 m c) (a2 m c) (a3 m c) :=
  (W6_arr m ρ c 2).trans (final1 (V5 m ρ) c _ _ _ _ (at_v45 m ρ c) (at_v46 m ρ c))

/-- The second product. -/
theorem at_v48 (c : Dev nD) :
    W7 m ρ c (Proc.devRef .tc main_v48) = val_main_v50 (F := Ideal) (a0 m c) (a1 m c) (a2 m c) (a3 m c) (a4 m c) :=
  (W7_arr m ρ c 2).trans (final2 (V6 m ρ) c _ _ _ _ _ (at_v47 m ρ c) (W6_arg4 m ρ c))

/-- The second neighbourhood sum. -/
theorem at_v60 (c : Dev nD) :
    W8 m ρ c (Proc.devRef .tc main_v60) = val_main_v63 (F := Ideal) (a0 m c) (a1 m c) (a2 m c) (a3 m c) (a4 m c) :=
  host3_agg m ρ c _ _ _ _ _ (at_v48 m ρ c) ((W7_v3 m ρ c).trans (W3_v3 m ρ c)) ((W7_v6 m ρ c).trans (W3_v6 m ρ c))
    ((W7_v32 m ρ c).trans (W3_v32 m ρ c))

theorem at_v61 (c : Dev nD) (j : S1x32.Idx) :
    (W8 m ρ c (Proc.devRef .tc main_v61) : S1x32.Idx → Elt Ideal .f32) j = a5 m c (ValueIdx.ix1 (j 1)) :=
  (host3_bias m ρ c j).trans (congrFun (W7_arg5 m ρ c) _)

/-- The second rectified layer. -/
theorem at_v62 (c : Dev nD) :
    W9 m ρ c (Proc.devRef .tc main_v62) = val_main_v67 (F := Ideal) (a0 m c) (a1 m c) (a2 m c) (a3 m c) (a4 m c) (a5 m c) :=
  (W9_arr m ρ c 2).trans (final3 (V8 m ρ) c _ _ _ _ _ _ (at_v60 m ρ c) (at_v61 m ρ c))

/-- The third product. -/
theorem at_v63 (c : Dev nD) :
    W10 m ρ c (Proc.devRef .tc main_v63) = val_main_v68 (F := Ideal) (a0 m c) (a1 m c) (a2 m c) (a3 m c) (a4 m c) (a5 m c) (a6 m c) :=
  (W10_arr m ρ c 2).trans (final4 (V9 m ρ) c _ _ _ _ _ _ _ (at_v62 m ρ c) (W9_arg6 m ρ c))

/-- The third neighbourhood sum. -/
theorem at_v75 (c : Dev nD) :
    W11 m ρ c (Proc.devRef .tc main_v75) = val_main_v81 (F := Ideal) (a0 m c) (a1 m c) (a2 m c) (a3 m c) (a4 m c) (a5 m c) (a6 m c) :=
  host5_agg m ρ c _ _ _ _ _ _ _ (at_v63 m ρ c) ((W10_v3 m ρ c).trans (W3_v3 m ρ c)) ((W10_v6 m ρ c).trans (W3_v6 m ρ c))
    ((W10_v32 m ρ c).trans (W3_v32 m ρ c))

theorem at_v76 (c : Dev nD) (j : S1x3.Idx) :
    (W11 m ρ c (Proc.devRef .tc main_v76) : S1x3.Idx → Elt Ideal .f32) j = a7 m c (ValueIdx.ix1 (j 1)) :=
  (host5_bias m ρ c j).trans (congrFun (W10_arg7 m ρ c) _)

/-- The program's result: the reference's last stage of the eight arguments. -/
theorem at_v77 (c : Dev nD) :
    W12 m ρ c (Proc.devRef .tc main_v77)
      = val_main_v85 (F := Ideal) (a0 m c) (a1 m c) (a2 m c) (a3 m c) (a4 m c) (a5 m c) (a6 m c) (a7 m c) :=
  (W12_arr m ρ c 2).trans (final5 (V11 m ρ) c _ _ _ _ _ _ _ _ (at_v75 m ρ c) (at_v76 m ρ c))

end Cert.KernelIdeal.KV

end
-- ==== Proof.lean ====
/- Three graph-convolution layers over 100000 nodes and 1.7 million edges (self-loops included), against their
   plain jnp reference, at the ideal instance (floats are extended reals).

   Each layer is: a dense product h · W; a neighbourhood sum (gather the product's rows at the edges' sources, scale
   each by the symmetric normalisation 1/sqrt(deg src · deg dst), add into the edges' targets); the bias; then the
   rectifier max(·, 0), or, after the last layer, the row-wise log-softmax z − max z − log Σ exp(z − max z).
   The program under proof computes the three products and the three bias stages in six tiled kernels (row blocks
   of 4000, 10000 and 20000 rows; the operands rounded to bf16 before the product, which is the identity on
   extended reals) and leaves the neighbourhood sums to the same host operations the reference uses.

   The two programs agree stage by stage: a tiled product of row blocks is the whole product restricted to the
   block, and a sum over the contracted axis is the same sum in either program; bias, rectifier and log-softmax are
   row-local, so a block of rows of the result depends on the same block of rows of the operand; the maximum over
   a row with initial value −∞ is the same whether folded by the kernel's lane reduction or by the host's reduce
   followed by one more maximum with −∞ (−∞ is the least extended real). None of these steps needs the inputs to be
   finite — the sums are re-indexed, never redistributed — so the precondition is never opened.

   Modules: KRun (the run with the result buffer named), Walk (buffers nobody writes keep their contents),
   HostPre / Host1 / Host3 / Host5 (the host stretches), Reg0 … Reg5 (what each kernel's output array holds after
   its run), LibColumn (a vector kept as a column, read at an entry), Chain (the boundaries in order),
   RefRun / RefRead (the reference's run and its stages). -/
import proofs.«179793_j86045374808468_1_alg».proof.Defs
import proofs.«179793_j86045374808468_1_alg».proof.Proof.Gen.Kernel
import proofs.«179793_j86045374808468_1_alg».proof.Proof.Gen.Kernel.Frame
import proofs.«179793_j86045374808468_1_alg».proof.Proof.Gen.KernelIdeal
import proofs.«179793_j86045374808468_1_alg».proof.Proof.Gen.KernelIdeal.Frame
import proofs.«179793_j86045374808468_1_alg».proof.Proof.Gen.ReferenceIdeal
import proofs.«179793_j86045374808468_1_alg».proof.Proof.Gen.Pre_finite_inputs
import proofs.«179793_j86045374808468_1_alg».proof.Proof.KRun
import proofs.«179793_j86045374808468_1_alg».proof.Proof.RefRead
import proofs.«179793_j86045374808468_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result buffer at the reference's last stage of the (agreeing) arguments. -/
theorem algebraic : Cert.algebraic_KernelIdeal_ReferenceIdeal := by
  intro m ρ m' ρ' _ hagree
  refine ⟨fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KV.at_v77 m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v85_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
